-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S1x16 : Shape := ⟨2, ![1, 16]⟩
abbrev S96x96 : Shape := ⟨2, ![96, 96]⟩
abbrev S96 : Shape := ⟨1, ![96]⟩
abbrev S96x64 : Shape := ⟨2, ![96, 64]⟩
abbrev S64 : Shape := ⟨1, ![64]⟩
abbrev S2x800000 : Shape := ⟨2, ![2, 800000]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_
  bcast_S_S2x800000 : S_.BroadcastsInDim S2x800000 (![] : Fin 0 → Fin S2x800000.rank)
  reducesTo_S2x800000_S_d0_1 : S2x800000.ReducesTo [0, 1] S_

variable [Facts]

def fn_part2 {F : FTy → Type} [FloatOps F] (main_v28 : IVec S_ 1) (main_v33 : IVec S2x800000 1) : IVec S_ 1 :=
  let main_c_12 : IVec S_ 1 := constantI S_ 1 1#1
  let main_v34 : IVec S_ 1 := (fun x v => Host.reduce IntOp.andi x v reducesTo_S2x800000_S_d0_1 h_S_) main_v33 main_c_12
  let main_v35 : IVec S_ 1 := andi main_v28 main_v34
  main_v35

def fn_part1 {F : FTy → Type} [FloatOps F] (main_arg4 : FVec F S96x64 .f32) (main_arg5 : FVec F S64 .f32) (main_arg6 : IVec S2x800000 32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x64 .f32 := Host.absf main_arg4
  let main_cst_6 : FVec F S_ .f32 := constant S_ .f32 0x7F800000#32
  let main_v20 : FVec F S96x64 .f32 := broadcastInDim S96x64 ![] bcast_S_S96x64 main_cst_6
  let main_v21 : IVec S96x64 1 := cmpf .olt main_v19 main_v20
  let main_c_7 : IVec S_ 1 := constantI S_ 1 1#1
  let main_v22 : IVec S_ 1 := (fun x v => Host.reduce IntOp.andi x v reducesTo_S96x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_c_10 : IVec S_ 32 := constantI S_ 32 0#32
  let main_v29 : IVec S2x800000 32 := broadcastInDim S2x800000 ![] bcast_S_S2x800000 main_c_10
  let main_v30 : IVec S2x800000 1 := cmpi .sge main_arg6 main_v29
  let main_c_11 : IVec S_ 32 := constantI S_ 32 50000#32
  let main_v31 : IVec S2x800000 32 := broadcastInDim S2x800000 ![] bcast_S_S2x800000 main_c_11
  let main_v32 : IVec S2x800000 1 := cmpi .slt main_arg6 main_v31
  let main_v33 : IVec S2x800000 1 := andi main_v30 main_v32
  fn_part2 (F := F) main_v28 main_v33

def fn {F : FTy → Type} [FloatOps F] (main_arg0 : FVec F S50000x32 .f32) (main_arg1 : FVec F S1x16 .f32) (main_arg2 : FVec F S96x96 .f32) (main_arg3 : FVec F S96 .f32) (main_arg4 : FVec F S96x64 .f32) (main_arg5 : FVec F S64 .f32) (main_arg6 : IVec S2x800000 32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S1x16 .f32 := Host.absf main_arg1
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_c_1 : IVec S_ 1 := constantI S_ 1 1#1
  let main_v7 : IVec S_ 1 := (fun x v => Host.reduce IntOp.andi x v reducesTo_S1x16_S_d0_1 h_S_) main_v6 main_c_1
  let main_v8 : IVec S_ 1 := andi main_v3 main_v7
  let main_v9 : FVec F S96x96 .f32 := Host.absf main_arg2
  let main_cst_2 : FVec F S_ .f32 := constant S_ .f32 0x7F800000#32
  let main_v10 : FVec F S96x96 .f32 := broadcastInDim S96x96 ![] bcast_S_S96x96 main_cst_2
  let main_v11 : IVec S96x96 1 := cmpf .olt main_v9 main_v10
  let main_c_3 : IVec S_ 1 := constantI S_ 1 1#1
  let main_v12 : IVec S_ 1 := (fun x v => Host.reduce IntOp.andi x v reducesTo_S96x96_S_d0_1 h_S_) main_v11 main_c_3
  let main_v13 : IVec S_ 1 := andi main_v8 main_v12
  let main_v14 : FVec F S96 .f32 := Host.absf main_arg3
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg4 main_arg5 main_arg6 main_v13 main_v16
-- ==== Kernel.lean ====
abbrev S50000x32 : Shape := ⟨2, ![50000, 32]⟩
abbrev S1x16 : Shape := ⟨2, ![1, 16]⟩
abbrev S96x96 : Shape := ⟨2, ![96, 96]⟩
abbrev S96 : Shape := ⟨1, ![96]⟩
abbrev S96x64 : Shape := ⟨2, ![96, 64]⟩
abbrev S64 : Shape := ⟨1, ![64]⟩
abbrev S2x800000 : Shape := ⟨2, ![2, 800000]⟩
abbrev S50000x16 : Shape := ⟨2, ![50000, 16]⟩
abbrev S50000x48 : Shape := ⟨2, ![50000, 48]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x48 : Shape := ⟨2, ![800000, 48]⟩
abbrev S1x96 : Shape := ⟨2, ![1, 96]⟩
abbrev S1x64 : Shape := ⟨2, ![1, 64]⟩
abbrev S800000x64 : Shape := ⟨2, ![800000, 64]⟩
abbrev S4000x48 : Shape := ⟨2, ![4000, 48]⟩
abbrev S4000x64 : Shape := ⟨2, ![4000, 64]⟩
abbrev S4000x96 : Shape := ⟨2, ![4000, 96]⟩
abbrev S50000x64 : Shape := ⟨2, ![50000, 64]⟩

abbrev nBuf : Space → Nat
  | .hbm => 66
  | .vmem => 10
  | .smem => 0
  | _ => 0

abbrev bufTy : (tb : Table) → Fin (tcTables nBuf tb) → BufTy
  | .hbm, ⟨0, _⟩ => ⟨S50000x32, .f32⟩
  | .hbm, ⟨1, _⟩ => ⟨S1x16, .f32⟩
  | .hbm, ⟨2, _⟩ => ⟨S96x96, .f32⟩
  | .hbm, ⟨3, _⟩ => ⟨S96, .f32⟩
  | .hbm, ⟨4, _⟩ => ⟨S96x64, .f32⟩
  | .hbm, ⟨5, _⟩ => ⟨S64, .f32⟩
  | .hbm, ⟨6, _⟩ => ⟨S2x800000, .i32⟩
  | .hbm, ⟨7, _⟩ => ⟨S50000x16, .f32⟩
  | .hbm, ⟨8, _⟩ => ⟨S50000x48, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S1, .i32⟩
  | .hbm, ⟨22, _⟩ => ⟨S_, .i32⟩
  | .hbm, ⟨23, _⟩ => ⟨S800000x1, .i32⟩
  | .hbm, ⟨24, _⟩ => ⟨S800000x1, .i1⟩
  | .hbm, ⟨25, _⟩ => ⟨S1x1, .i32⟩
  | .hbm, ⟨26, _⟩ => ⟨S800000x1, .i32⟩
  | .hbm, ⟨27, _⟩ => ⟨S800000x1, .i1⟩
  | .hbm, ⟨28, _⟩ => ⟨S800000x1, .i1⟩
  | .hbm, ⟨29, _⟩ => ⟨S_, .i1⟩
  | .hbm, ⟨30, _⟩ => ⟨S800000, .i1⟩
  | .hbm, ⟨31, _⟩ => ⟨S800000x48, .f32⟩
  | .hbm, ⟨32, _⟩ => ⟨S800000x48, .i1⟩
  | .hbm, ⟨33, _⟩ => ⟨S_, .f32⟩
  | .hbm, ⟨34, _⟩ => ⟨S800000x48, .f32⟩
  | .hbm, ⟨35, _⟩ => ⟨S800000x48, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S1, .i32⟩
  | .hbm, ⟨45, _⟩ => ⟨S_, .i32⟩
  | .hbm, ⟨46, _⟩ => ⟨S800000x1, .i32⟩
  | .hbm, ⟨47, _⟩ => ⟨S800000x1, .i1⟩
  | .hbm, ⟨48, _⟩ => ⟨S1x1, .i32⟩
  | .hbm, ⟨49, _⟩ => ⟨S800000x1, .i32⟩
  | .hbm, ⟨50, _⟩ => ⟨S800000x1, .i1⟩
  | .hbm, ⟨51, _⟩ => ⟨S800000x1, .i1⟩
  | .hbm, ⟨52, _⟩ => ⟨S_, .i1⟩
  | .hbm, ⟨53, _⟩ => ⟨S800000, .i1⟩
  | .hbm, ⟨54, _⟩ => ⟨S800000x48, .f32⟩
  | .hbm, ⟨55, _⟩ => ⟨S800000x48, .i1⟩
  | .hbm, ⟨56, _⟩ => ⟨S_, .f32⟩
  | .hbm, ⟨57, _⟩ => ⟨S800000x48, .f32⟩
  | .hbm, ⟨58, _⟩ => ⟨S800000x48, .f32⟩
  | .hbm, ⟨59, _⟩ => ⟨S1x96, .f32⟩
  | .hbm, ⟨60, _⟩ => ⟨S1x64, .f32⟩
  | .hbm, ⟨61, _⟩ => ⟨S800000x64, .f32⟩
  | .hbm, ⟨62, _⟩ => ⟨S_, .f32⟩
  | .hbm, ⟨63, _⟩ => ⟨S50000x64, .f32⟩
  | .hbm, ⟨64, _⟩ => ⟨S800000x1, .i32⟩
  | .hbm, ⟨65, _⟩ => ⟨S50000x64, .f32⟩
  | .local _ .vmem, ⟨0, _⟩ => ⟨S4000x48, .f32⟩
  | .local _ .vmem, ⟨1, _⟩ => ⟨S4000x48, .f32⟩
  | .local _ .vmem, ⟨2, _⟩ => ⟨S4000x48, .f32⟩
  | .local _ .vmem, ⟨3, _⟩ => ⟨S4000x48, .f32⟩
  | .local _ .vmem, ⟨4, _⟩ => ⟨S96x96, .f32⟩
  | .local _ .vmem, ⟨5, _⟩ => ⟨S1x96, .f32⟩
  | .local _ .vmem, ⟨6, _⟩ => ⟨S96x64, .f32⟩
  | .local _ .vmem, ⟨7, _⟩ => ⟨S1x64, .f32⟩
  | .local _ .vmem, ⟨8, _⟩ => ⟨S4000x64, .f32⟩
  | .local _ .vmem, ⟨9, _⟩ => ⟨S4000x64, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v6 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_cst : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S1x16_S50000x16_0_1 : S1x16.BroadcastsInDim S50000x16 (![0, 1] : Fin 2 → Fin S50000x16.rank)
  concatenates_S50000x32_S50000x16_S50000x48_d1 : Shape.Concatenates [S50000x32, S50000x16] S50000x48 1
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x48_0 : S800000.BroadcastsInDim S800000x48 (![0] : Fin 1 → Fin S800000x48.rank)
  bcast_S_S800000x48 : S_.BroadcastsInDim S800000x48 (![] : Fin 0 → Fin S800000x48.rank)
  shapeCasts_S96_S1x96 : S96.ShapeCasts S1x96
  shapeCasts_S64_S1x64 : S64.ShapeCasts S1x64
  inb_S4000x48_S4000x48_0_0 : ∀ a, (![0, 0] : Fin 2 → Nat) a + S4000x48.size a ≤ S4000x48.size a
  h_S4000x48 : 0 < S4000x48.numel
  shapeCasts_S4000x48_S4000x48 : S4000x48.ShapeCasts S4000x48
  concatenates_S4000x48_S4000x48_S4000x96_d1 : Shape.Concatenates [S4000x48, S4000x48] S4000x96 1
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S4000x96 : S1x96.Broadcasts S4000x96
  inb_S96x64_S96x64_0_0 : ∀ a, (![0, 0] : Fin 2 → Nat) a + S96x64.size a ≤ S96x64.size a
  h_S96x64 : 0 < S96x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  bcast_S_S50000x64 : S_.BroadcastsInDim S50000x64 (![] : Fin 0 → Fin S50000x64.rank)
  gather_S50000x48_S800000x1_S800000x48_1_0_n_n_0_1_148_wf : GatherDims.WF S50000x48 S800000x1 S800000x48 [1] [0] [] [0] [] 1 ![1, 48]
  dot_S4000x96_S96x96_S4000x96_1_0_0_1_n_n_wf : DotDims.WF S4000x96 S96x96 S4000x96 [1] [0] [0] [1] [] []
  dot_S4000x96_S96x64_S4000x64_1_0_0_1_n_n_wf : DotDims.WF S4000x96 S96x64 S4000x64 [1] [0] [0] [1] [] []
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x48.size a ≤ S800000x48.size a
  hwx0_0 : ∀ i : grid0.Coords, EltTy.bits .f32 = 32 ∨ (Rect.block (s := S800000x48) S4000x48.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x48.size a ≤ S800000x48.size a
  hwx0_1 : ∀ i : grid0.Coords, EltTy.bits .f32 = 32 ∨ (Rect.block (s := S800000x48) S4000x48.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x96.size a ≤ S96x96.size a
  hwx0_2 : ∀ i : grid0.Coords, EltTy.bits .f32 = 32 ∨ (Rect.block (s := S96x96) S96x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x96.size a ≤ S1x96.size a
  hwx0_3 : ∀ i : grid0.Coords, EltTy.bits .f32 = 32 ∨ (Rect.block (s := S1x96) S1x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x64.size a ≤ S96x64.size a
  hwx0_4 : ∀ i : grid0.Coords, EltTy.bits .f32 = 32 ∨ (Rect.block (s := S96x64) S96x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x64.size a ≤ S800000x64.size a
  hwx0_6 : ∀ i : grid0.Coords, EltTy.bits .f32 = 32 ∨ (Rect.block (s := S800000x64) S4000x64.size (cc0_transform_6 i) (hinb0_6 i)).WholeWords (EltTy.packing .f32)

variable [Facts₀]

def gather_S50000x48_S800000x1_S800000x48_1_0_n_n_0_1_148 : GatherDims S50000x48 S800000x1 S800000x48 where
  offsetDims := [1]
  collapsedSliceDims := [0]
  operandBatchingDims := []
  startIndicesBatchingDims := []
  startIndexMap := [0]
  indexVectorDim := 1
  sliceSizes := ![1, 48]
  wf := gather_S50000x48_S800000x1_S800000x48_1_0_n_n_0_1_148_wf
def dot_S4000x96_S96x96_S4000x96_1_0_0_1_n_n : DotDims S4000x96 S96x96 S4000x96 where
  lhsContracting := [1]
  rhsContracting := [0]
  lhsNonContracting := [0]
  rhsNonContracting := [1]
  lhsBatch := []
  rhsBatch := []
  wf := dot_S4000x96_S96x96_S4000x96_1_0_0_1_n_n_wf
def dot_S4000x96_S96x64_S4000x64_1_0_0_1_n_n : DotDims S4000x96 S96x64 S4000x64 where
  lhsContracting := [1]
  rhsContracting := [0]
  lhsNonContracting := [0]
  rhsNonContracting := [1]
  lhsBatch := []
  rhsBatch := []
  wf := dot_S4000x96_S96x64_S4000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v6) S4000x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S4000x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S96x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S96x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S4000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x32 : Shape := ⟨2, ![50000, 32]⟩
abbrev S1x16 : Shape := ⟨2, ![1, 16]⟩
abbrev S96x96 : Shape := ⟨2, ![96, 96]⟩
abbrev S96 : Shape := ⟨1, ![96]⟩
abbrev S96x64 : Shape := ⟨2, ![96, 64]⟩
abbrev S64 : Shape := ⟨1, ![64]⟩
abbrev S2x800000 : Shape := ⟨2, ![2, 800000]⟩
abbrev S50000x16 : Shape := ⟨2, ![50000, 16]⟩
abbrev S50000x48 : Shape := ⟨2, ![50000, 48]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x48 : Shape := ⟨2, ![800000, 48]⟩
abbrev S800000x96 : Shape := ⟨2, ![800000, 96]⟩
abbrev S1x96 : Shape := ⟨2, ![1, 96]⟩
abbrev S800000x64 : Shape := ⟨2, ![800000, 64]⟩
abbrev S1x64 : Shape := ⟨2, ![1, 64]⟩
abbrev S50000x64 : Shape := ⟨2, ![50000, 64]⟩

abbrev nBuf : Space → Nat
  | .hbm => 48
  | .vmem => 0
  | .smem => 0
  | _ => 0

abbrev bufTy : (tb : Table) → Fin (tcTables nBuf tb) → BufTy
  | .hbm, ⟨0, _⟩ => ⟨S50000x32, .f32⟩
  | .hbm, ⟨1, _⟩ => ⟨S1x16, .f32⟩
  | .hbm, ⟨2, _⟩ => ⟨S96x96, .f32⟩
  | .hbm, ⟨3, _⟩ => ⟨S96, .f32⟩
  | .hbm, ⟨4, _⟩ => ⟨S96x64, .f32⟩
  | .hbm, ⟨5, _⟩ => ⟨S64, .f32⟩
  | .hbm, ⟨6, _⟩ => ⟨S2x800000, .i32⟩
  | .hbm, ⟨7, _⟩ => ⟨S50000x16, .f32⟩
  | .hbm, ⟨8, _⟩ => ⟨S50000x48, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x48, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x48, .f32⟩
  | .hbm, ⟨31, _⟩ => ⟨S800000x48, .f32⟩
  | .hbm, ⟨32, _⟩ => ⟨S800000x96, .f32⟩
  | .hbm, ⟨33, _⟩ => ⟨S800000x96, .f32⟩
  | .hbm, ⟨34, _⟩ => ⟨S1x96, .f32⟩
  | .hbm, ⟨35, _⟩ => ⟨S800000x96, .f32⟩
  | .hbm, ⟨36, _⟩ => ⟨S800000x96, .f32⟩
  | .hbm, ⟨37, _⟩ => ⟨S_, .f32⟩
  | .hbm, ⟨38, _⟩ => ⟨S800000x96, .f32⟩
  | .hbm, ⟨39, _⟩ => ⟨S800000x96, .f32⟩
  | .hbm, ⟨40, _⟩ => ⟨S800000x64, .f32⟩
  | .hbm, ⟨41, _⟩ => ⟨S1x64, .f32⟩
  | .hbm, ⟨42, _⟩ => ⟨S800000x64, .f32⟩
  | .hbm, ⟨43, _⟩ => ⟨S800000x64, .f32⟩
  | .hbm, ⟨44, _⟩ => ⟨S_, .f32⟩
  | .hbm, ⟨45, _⟩ => ⟨S50000x64, .f32⟩
  | .hbm, ⟨46, _⟩ => ⟨S800000x1, .i32⟩
  | .hbm, ⟨47, _⟩ => ⟨S50000x64, .f32⟩
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_cst : Ref sig .tc := ⟨.hbm, 37, rfl⟩
abbrev main_call0_v0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  bcast_S1x16_S50000x16_0_1 : S1x16.BroadcastsInDim S50000x16 (![0, 1] : Fin 2 → Fin S50000x16.rank)
  concatenates_S50000x32_S50000x16_S50000x48_d1 : Shape.Concatenates [S50000x32, S50000x16] S50000x48 1
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x48_S800000x48_S800000x96_d1 : Shape.Concatenates [S800000x48, S800000x48] S800000x96 1
  bcast_S96_S1x96_1 : S96.BroadcastsInDim S1x96 (![1] : Fin 1 → Fin S1x96.rank)
  bcast_S1x96_S800000x96_0_1 : S1x96.BroadcastsInDim S800000x96 (![0, 1] : Fin 2 → Fin S800000x96.rank)
  bcast_S_S800000x96 : S_.BroadcastsInDim S800000x96 (![] : Fin 0 → Fin S800000x96.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S50000x64 : S_.BroadcastsInDim S50000x64 (![] : Fin 0 → Fin S50000x64.rank)
  gather_S50000x48_S800000x1_S800000x48_1_0_n_n_0_1_148_wf : GatherDims.WF S50000x48 S800000x1 S800000x48 [1] [0] [] [0] [] 1 ![1, 48]
  dot_S800000x96_S96x96_S800000x96_1_0_0_1_n_n_wf : DotDims.WF S800000x96 S96x96 S800000x96 [1] [0] [0] [1] [] []
  dot_S800000x96_S96x64_S800000x64_1_0_0_1_n_n_wf : DotDims.WF S800000x96 S96x64 S800000x64 [1] [0] [0] [1] [] []
  scatter_S50000x64_S800000x1_S800000x64_1_0_0_1_wf : ScatterDims.WF S50000x64 S800000x1 S800000x64 [1] [0] [0] 1

variable [Facts₀]

def gather_S50000x48_S800000x1_S800000x48_1_0_n_n_0_1_148 : GatherDims S50000x48 S800000x1 S800000x48 where
  offsetDims := [1]
  collapsedSliceDims := [0]
  operandBatchingDims := []
  startIndicesBatchingDims := []
  startIndexMap := [0]
  indexVectorDim := 1
  sliceSizes := ![1, 48]
  wf := gather_S50000x48_S800000x1_S800000x48_1_0_n_n_0_1_148_wf
def dot_S800000x96_S96x96_S800000x96_1_0_0_1_n_n : DotDims S800000x96 S96x96 S800000x96 where
  lhsContracting := [1]
  rhsContracting := [0]
  lhsNonContracting := [0]
  rhsNonContracting := [1]
  lhsBatch := []
  rhsBatch := []
  wf := dot_S800000x96_S96x96_S800000x96_1_0_0_1_n_n_wf
def dot_S800000x96_S96x64_S800000x64_1_0_0_1_n_n : DotDims S800000x96 S96x64 S800000x64 where
  lhsContracting := [1]
  rhsContracting := [0]
  lhsNonContracting := [0]
  rhsNonContracting := [1]
  lhsBatch := []
  rhsBatch := []
  wf := dot_S800000x96_S96x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.LibAll.lean ====
/-
  A reduce by `and` of an array of ones is one.

  The library reads a printed `jnp.all` one way: a reduce by `and` that came out 1 met only 1s
  (`Host.reduce_andi_eq_one`, `Host.reduce_andi_all`). This is the other direction, for a mask a program
  COMPUTES by such a reduce (a range test folded over an index vector's components): from the constant 1, over an
  array whose every element is 1, the result is 1 at every result index, whatever axes are reduced.
-/
import Idealize.ShloMosaic.Lib.ReduceAll

namespace Cert.LibAll

open Idealize.ShloMosaic

/-- A left fold by `and` over `i1` words, started at 1 and meeting only 1s, comes out 1. -/
theorem foldl_andi_of_all {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_of_all f l fun n hn => h n (List.mem_cons_of_mem _ hn)

/-- A `stablehlo.reduce` by `and`, from an initial value 1, of an array that is 1 everywhere is 1 at every index of
    the result (any reduced axes, any result shape). -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_of_all x _ fun n _ => hx n

end Cert.LibAll
-- ==== Proof.Take.lean ====
/-
  The kernel program's row gather is the plain gather when every index is in range.

  The kernel's host code takes rows of the [50000, 48] feature table by `jnp.take` in its default mode: a negative
  index is first wrapped by the table's length, the wrapped index is tested against [0, 49999], the rows are
  gathered, and a row whose (wrapped) index fails the test is replaced by a fill value. For an index vector whose
  every entry is already in [0, 50000) the wrap does nothing and the test passes everywhere, so the result is
  exactly the gather at the (unchanged) wrapped indices, which is what the reference's `table[idx]` computes. The
  gather itself is never opened.
-/
import proofs.«428902_j15427522527435_1_alg».proof.Proof.Gen.KernelIdeal
import proofs.«428902_j15427522527435_1_alg».proof.Proof.LibAll
import Idealize.ShloMosaic.Lib.Affine
import Idealize.ShloMosaic.Lib.ValueIdx
import Idealize.ShloMosaic.Lib.Pipeline.Value

noncomputable section

namespace Cert.KernelIdeal.Take

open Cert.KernelIdeal Cert.KernelIdeal.Gen Idealize.ShloMosaic Idealize.ShloMosaic.ValueIdx

/-- The start-index column of the gather: each index, plus the table's length where it is negative, as an
    [800000, 1] column. -/
def wrapCol (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- The range test on the start-index column: 1 where the wrapped index is at least 0 and at most 49999. -/
def inRange (idx : IVec S800000 32) : IVec S800000x1 1 :=
  andi (cmpi .sge (wrapCol idx) (broadcastInDim S800000x1 ![] bcast_S_S800000x1 (constantI S_ 32 0#32)))
    (cmpi .sle (wrapCol idx) (broadcastInDim S800000x1 ![0, 1] bcast_S1x1_S800000x1_0_1
      (broadcastInDim S1x1 ![1] bcast_S1_S1x1_1 (constantI S1 32 49999#32))))

/-- The take as the kernel's program spells it: the gathered rows where the row's index passes the range test (the
    test folded over the column's one component and laid along the row), the fill value elsewhere. -/
def takeFill (tbl : FVec Ideal S50000x48 .f32) (idx : IVec S800000 32) : FVec Ideal S800000x48 .f32 :=
  select
    (broadcastInDim S800000x48 ![0] bcast_S800000_S800000x48_0
      (Host.reduce IntOp.andi (inRange idx) (constantI S_ 1 1#1) reducesTo_S800000x1_S800000_d1 h_S_))
    (Host.gather gather_S50000x48_S800000x1_S800000x48_1_0_n_n_0_1_148 tbl (wrapCol idx))
    (broadcastInDim S800000x48 ![] bcast_S_S800000x48 (constant (F := Ideal) S_ .f32 0x7FC00000#32))

theorem toInt_0 : (0#32 : BitVec 32).toInt = 0 := by decide
theorem toInt_49999 : (49999#32 : BitVec 32).toInt = 49999 := by decide
theorem toInt_50000 : (50000#32 : BitVec 32).toInt = 50000 := by decide

/-- A nonnegative index is not wrapped: the column's entry in row e is the index e itself. -/
theorem wrapCol_apply (idx : IVec S800000 32) (hge : ∀ e, IntOp.cmpi .sge (idx e) 0#32 = 1#1) (y : S800000x1.Idx) :
    wrapCol idx y = idx (ix1 (⟨(y 0).val, idx2_lt0 y⟩ : Fin 800000)) := by
  unfold wrapCol
  refine (broadcastInDim_apply ![0] bcast_S800000_S800000x1_0 _ y (ix1 (⟨(y 0).val, idx2_lt0 y⟩ : Fin 800000)) (fun a => match a with
    | ⟨0, _⟩ => by show (y 0).val = if (800000 : Nat) = 1 then 0 else (y 0).val; rw [if_neg (by decide)])).trans ?_
  show Scalar.select (IntOp.cmpi .slt (idx (ix1 (⟨(y 0).val, idx2_lt0 y⟩ : Fin 800000))) 0#32) _ _ = _
  have hn : IntOp.cmpi .slt (idx (ix1 (⟨(y 0).val, idx2_lt0 y⟩ : Fin 800000))) 0#32 = 0#1 :=
    eq_zero_of_ne_one fun h => by
      have h1 := IntOp.cmpi_slt.1 h
      have h2 := IntOp.cmpi_sge.1 (hge (ix1 (⟨(y 0).val, idx2_lt0 y⟩ : Fin 800000)))
      rw [toInt_0] at h1 h2
      omega
  rw [hn, select_zero]

/-- With every index in [0, 50000) the range test passes in every row. -/
theorem inRange_one (idx : IVec S800000 32) (hge : ∀ e, IntOp.cmpi .sge (idx e) 0#32 = 1#1)
    (hlt : ∀ e, IntOp.cmpi .slt (idx e) 50000#32 = 1#1) (y : S800000x1.Idx) : inRange idx y = 1#1 := by
  unfold inRange
  show IntOp.andi (IntOp.cmpi .sge (wrapCol idx y) 0#32) (IntOp.cmpi .sle (wrapCol idx y) 49999#32) = 1#1
  rw [wrapCol_apply idx hge y]
  refine IntOp.andi_eq_one.2 ⟨hge _, IntOp.cmpi_sle.2 ?_⟩
  have h1 := IntOp.cmpi_slt.1 (hlt (ix1 (⟨(y 0).val, idx2_lt0 y⟩ : Fin 800000)))
  rw [toInt_50000] at h1
  rw [toInt_49999]
  omega

/-- THE TAKE IS THE GATHER: with every index in [0, 50000), the kernel program's take is the gather at the wrapped
    (here: unchanged) start indices. -/
theorem takeFill_eq_gather (tbl : FVec Ideal S50000x48 .f32) (idx : IVec S800000 32)
    (hge : ∀ e, IntOp.cmpi .sge (idx e) 0#32 = 1#1) (hlt : ∀ e, IntOp.cmpi .slt (idx e) 50000#32 = 1#1) :
    takeFill tbl idx = Host.gather gather_S50000x48_S800000x1_S800000x48_1_0_n_n_0_1_148 tbl (wrapCol idx) := by
  funext i
  unfold takeFill
  rw [select_apply]
  have hm : (broadcastInDim S800000x48 ![0] bcast_S800000_S800000x48_0
      (Host.reduce IntOp.andi (inRange idx) (constantI S_ 1 1#1) reducesTo_S800000x1_S800000_d1 h_S_)) i = 1#1 :=
    Cert.LibAll.reduce_andi_of_all (inRange idx) (constantI S_ 1 1#1) reducesTo_S800000x1_S800000_d1 h_S_ rfl
      (inRange_one idx hge hlt) _
  rw [hm, select_one]

end Cert.KernelIdeal.Take

end
-- ==== Proof.LibTRef.lean ====
/-
  Host operation chains: two small general facts.

  (1) Typed references of a module-local function. A value of a callee's body is held in a buffer through a typed
  reference: the buffer, with the fact that the buffer's type is the value's. Contents move between the two types
  by transport along that fact (`toBuf`, `ofBuf`). Writing a value into a buffer and reading it back through any
  typed reference to the SAME buffer (the proofs of its facts may differ) gives the value back. With this as a
  rewrite rule, the composed term of a chain of a callee's operations loses every inner pair of transports.

  (2) The contents after a chain of host operations that is a concatenation are the contents after the second
  part, started from the contents after the first: a chain can be cut at a call's boundary and the callee's
  operations run over abstract incoming contents.
-/
import Idealize.ShloMosaic.Lib.StableHlo
import Idealize.ShloMosaic.Lib.StableHlo.Run

namespace Cert.LibTRef

open Idealize.ShloMosaic Idealize.ShloMosaic.StableHlo

/-- Reading back, through a typed reference to buffer `r`, what was written through a typed reference to `r`. -/
theorem ofBuf_toBuf {sig : RefSig} {Val : EltTy → Type} {T : BufTy} (r : Ref sig .tc) (h1 h1' : r.ty = T)
    (h2 h2' : r.space ≠ .host) (h3 h3' : r.isScoped = false) (v : T.Contents Val) :
    (TRef.mk r h1 h2 h3).ofBuf ((TRef.mk r h1' h2' h3').toBuf v) = v := by
  subst h1
  rfl

/-- The contents after `l₁ ++ l₂` are the contents after `l₂` from the contents after `l₁`. -/
theorem after_append {τ : Topo} {sig : RefSig} {Val : EltTy → Type}
    (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibTRef
-- ==== Proof.HostSide.lean ====
/-
  The arrays the kernel's region finds, from the launch memory.

  Before the region the kernel's program builds the node table (the node features with the graph's scalars laid
  beside every row), slices the edge-index array into its source row and its target row, takes the table's rows
  at the targets and at the sources (two calls of one module-local function, 23 operations each), and reshapes
  the two biases to one-row arrays. This module reads the region-entry contents of the buffers the region stages:

  * the two gathered arrays are `Take.takeFill` of the node table at the target, resp. source, indices;
  * the target-index vector (which the scatter after the region uses too) is row 1 of the edge-index array;
  * the two one-row biases are the bias vectors reshaped.

  The chain of 54 operations is cut at the two calls' boundaries (`LibTRef.after_append`); each call is run over
  ABSTRACT incoming contents, where its composed term is small: the inner transports of the callee's typed
  references cancel in pairs, the three outer ones are the identity.
-/
import proofs.«428902_j15427522527435_1_alg».proof.Proof.Gen.KernelIdeal.Frame
import proofs.«428902_j15427522527435_1_alg».proof.Proof.Take
import proofs.«428902_j15427522527435_1_alg».proof.Proof.LibTRef
import Idealize.ShloMosaic.Lib.StableHlo.Run

noncomputable section

namespace Cert.KernelIdeal.HostSide

open Cert.KernelIdeal Cert.KernelIdeal.Gen Idealize.ShloMosaic Idealize.ShloMosaic.TcCoe Idealize.SL.Sem Idealize.ShloMosaic.StableHlo
open Idealize.ShloMosaic.ValueIdx Cert.KernelIdeal.Take

/-! ## One call of the take, over abstract incoming contents -/

/-- Reading the target-index buffer through its typed reference changes nothing. -/
theorem ofBuf_v5 (D : S800000.Idx → BitVec 32) (p1 p2 p3) :
    ((TRef.of main_v5 p1 p2 p3 : StableHlo.TRef sig ⟨S800000, .i32⟩).ofBuf (Val := Elt Ideal) D) = D := rfl
/-- Reading the source-index buffer through its typed reference changes nothing. -/
theorem ofBuf_v3 (D : S800000.Idx → BitVec 32) (p1 p2 p3) :
    ((TRef.of main_v3 p1 p2 p3 : StableHlo.TRef sig ⟨S800000, .i32⟩).ofBuf (Val := Elt Ideal) D) = D := rfl
/-- Reading the table buffer through its typed reference changes nothing. -/
theorem ofBuf_v1 (T : S50000x48.Idx → EReal) (p1 p2 p3) :
    ((TRef.of main_v1 p1 p2 p3 : StableHlo.TRef sig ⟨S50000x48, .f32⟩).ofBuf (Val := Elt Ideal) T) = T := rfl
/-- Writing the first call's result buffer through its typed reference changes nothing. -/
theorem toBuf_v6 (X : S800000x48.Idx → EReal) (p1 p2 p3) :
    ((TRef.of main_v6 p1 p2 p3 : StableHlo.TRef sig ⟨S800000x48, .f32⟩).toBuf (Val := Elt Ideal) X : S800000x48.Idx → EReal) = X := rfl
/-- Writing the second call's result buffer through its typed reference changes nothing. -/
theorem toBuf_v7 (X : S800000x48.Idx → EReal) (p1 p2 p3) :
    ((TRef.of main_v7 p1 p2 p3 : StableHlo.TRef sig ⟨S800000x48, .f32⟩).toBuf (Val := Elt Ideal) X : S800000x48.Idx → EReal) = X := rfl

set_option maxHeartbeats 1000000 in
/-- The first call (rows at the targets), from ANY incoming contents: its result buffer holds the take of the table
    buffer at the target-index buffer. -/
theorem call0_result (W : Valuation τ sig (Elt Ideal)) :
    (after hostOps0_1 W (Proc.devRef .tc main_v6) : S800000x48.Idx → EReal)
      = takeFill (W (Proc.devRef .tc main_v1)) (W (Proc.devRef .tc main_v5)) := by
  simp only [hostOps0_1]
  after_results_simp
  simp only [Cert.LibTRef.ofBuf_toBuf]
  generalize (W (Proc.devRef .tc main_v5) : S800000.Idx → BitVec 32) = D
  generalize (W (Proc.devRef .tc main_v1) : S50000x48.Idx → EReal) = T
  simp only [ofBuf_v5, ofBuf_v1]
  refine (toBuf_v6 _ _ _ _).trans ?_
  unfold takeFill inRange wrapCol
  rfl

set_option maxHeartbeats 1000000 in
/-- The second call (rows at the sources) likewise. -/
theorem call1_result (W : Valuation τ sig (Elt Ideal)) :
    (after hostOps0_2 W (Proc.devRef .tc main_v7) : S800000x48.Idx → EReal)
      = takeFill (W (Proc.devRef .tc main_v1)) (W (Proc.devRef .tc main_v3)) := by
  simp only [hostOps0_2]
  after_results_simp
  simp only [Cert.LibTRef.ofBuf_toBuf]
  generalize (W (Proc.devRef .tc main_v3) : S800000.Idx → BitVec 32) = D
  generalize (W (Proc.devRef .tc main_v1) : S50000x48.Idx → EReal) = T
  simp only [ofBuf_v3, ofBuf_v1]
  refine (toBuf_v7 _ _ _ _).trans ?_
  unfold takeFill inRange wrapCol
  rfl

/-! ## Which later operations leave a buffer alone -/

theorem call0_keeps_v1 : ∀ op ∈ (hostOps0_1 : List (HloOp τ sig (Elt Ideal))), Proc.devRef .tc main_v1 ∉ op.writes :=
  List.forall_iff_forall_mem.mp (by
    simp only [hostOps0_1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))
theorem call0_keeps_v3 : ∀ op ∈ (hostOps0_1 : List (HloOp τ sig (Elt Ideal))), Proc.devRef .tc main_v3 ∉ op.writes :=
  List.forall_iff_forall_mem.mp (by
    simp only [hostOps0_1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))
theorem call1_keeps_v6 : ∀ op ∈ (hostOps0_2 : List (HloOp τ sig (Elt Ideal))), Proc.devRef .tc main_v6 ∉ op.writes :=
  List.forall_iff_forall_mem.mp (by
    simp only [hostOps0_2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))
theorem reshapes_keep_v6 : ∀ op ∈ (hostOps0_3 : List (HloOp τ sig (Elt Ideal))), Proc.devRef .tc main_v6 ∉ op.writes :=
  List.forall_iff_forall_mem.mp (by
    simp only [hostOps0_3, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))
theorem reshapes_keep_v7 : ∀ op ∈ (hostOps0_3 : List (HloOp τ sig (Elt Ideal))), Proc.devRef .tc main_v7 ∉ op.writes :=
  List.forall_iff_forall_mem.mp (by
    simp only [hostOps0_3, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))

/-! ## The region-entry contents -/

variable (m : (ℓ : Loc nD τ sig) → Buf (Elt Ideal) ℓ)

/-- The node table: the node features with the graph's scalars laid beside every row. -/
def tbl (c : Dev nD) : FVec Ideal S50000x48 .f32 :=
  concatenate S50000x48 1 [⟨S50000x32, m ((c : Thread nD τ).loc main_arg0)⟩,
    ⟨S50000x16, broadcastInDim S50000x16 ![0, 1] bcast_S1x16_S50000x16_0_1 (m ((c : Thread nD τ).loc main_arg1))⟩]
    concatenates_S50000x32_S50000x16_S50000x48_d1

/-- The edges' source nodes: row 0 of the edge-index array, as a vector. -/
def src (c : Dev nD) : IVec S800000 32 :=
  shapeCast S800000 (extractStridedSlice S1x800000 ![0, 0] (m ((c : Thread nD τ).loc main_arg6)) slices_S2x800000_S1x800000_0_0)
    shapeCasts_S1x800000_S800000

/-- The edges' target nodes: row 1 of the edge-index array, as a vector. -/
def dst (c : Dev nD) : IVec S800000 32 :=
  shapeCast S800000 (extractStridedSlice S1x800000 ![1, 0] (m ((c : Thread nD τ).loc main_arg6)) slices_S2x800000_S1x800000_1_0)
    shapeCasts_S1x800000_S800000

/-- The contents after the first six operations (the table and the two index vectors), from the launch memory. -/
abbrev W0 (c : Dev nD) : Valuation τ sig (Elt Ideal) := after hostOps0 (fun b => m (c, b))

theorem W0_v1 (c : Dev nD) : (W0 m c (Proc.devRef .tc main_v1) : S50000x48.Idx → EReal) = tbl m c := by
  unfold tbl W0
  simp only [hostOps0]
  after_results
theorem W0_v3 (c : Dev nD) : (W0 m c (Proc.devRef .tc main_v3) : S800000.Idx → BitVec 32) = src m c := by
  unfold src W0
  simp only [hostOps0]
  after_results
  rfl
theorem W0_v5 (c : Dev nD) : (W0 m c (Proc.devRef .tc main_v5) : S800000.Idx → BitVec 32) = dst m c := by
  unfold dst W0
  simp only [hostOps0]
  after_results
  rfl

/-- The region-entry contents, cut at the calls' boundaries. -/
theorem V0_split (c : Dev nD) :
    V0 m c = after hostOps0_3 (after hostOps0_2 (after hostOps0_1 (W0 m c))) := by
  show after (List.flatten [hostOps0, hostOps0_1, hostOps0_2, hostOps0_3]) (fun b => m (c, b)) = _
  simp only [List.flatten_cons, List.flatten_nil, List.append_nil, Cert.LibTRef.after_append]

/-- THE ROWS AT THE TARGETS as the region finds them: the take of the node table at the target indices. -/
theorem V_v6 (c : Dev nD) : (V m c main_v6 : S800000x48.Idx → EReal) = takeFill (tbl m c) (dst m c) := by
  show (V0 m c (Proc.devRef .tc main_v6) : S800000x48.Idx → EReal) = _
  rw [V0_split, after_of_forall_not_mem hostOps0_3 _ reshapes_keep_v6, after_of_forall_not_mem hostOps0_2 _ call1_keeps_v6,
    call0_result, W0_v1, W0_v5]

/-- THE ROWS AT THE SOURCES as the region finds them: the take of the node table at the source indices. -/
theorem V_v7 (c : Dev nD) : (V m c main_v7 : S800000x48.Idx → EReal) = takeFill (tbl m c) (src m c) := by
  show (V0 m c (Proc.devRef .tc main_v7) : S800000x48.Idx → EReal) = _
  rw [V0_split, after_of_forall_not_mem hostOps0_3 _ reshapes_keep_v7, call1_result,
    after_of_forall_not_mem hostOps0_1 _ call0_keeps_v1, after_of_forall_not_mem hostOps0_1 _ call0_keeps_v3, W0_v1, W0_v3]

end Cert.KernelIdeal.HostSide

end
-- ==== Proof.EdgeMlp.lean ====
/-
  The edge network of one message-passing layer, as a function on extended reals.

  For one edge with target-node features `a` and source-node features `b` (48 numbers each) the network's input
  row is `a` followed by `b - a` (96 numbers); it is multiplied by a 96 x 96 matrix, shifted by a bias, clipped
  below at zero, multiplied by a 96 x 64 matrix and shifted by a second bias. `outRow` is that row of 64 numbers,
  every sum a plain finite sum in the order of the index. `edgeOut` lays the rows of all 800000 edges out as one
  [800000, 64] array, the two feature tables given as [800000, 48] arrays (one row per edge).

  Nothing here mentions a program: both the kernel's blocks and the reference's whole-array operations are
  proved elsewhere to be this function of their operands.
-/
import Idealize.ShloMosaic.PureOps.Ideal
import Idealize.ShloMosaic.Lib.ValueIdx

noncomputable section

namespace Cert.EdgeMlp

open Idealize.ShloMosaic Idealize.ShloMosaic.ValueIdx

/-- Entry `j` of the network's input row: the target's feature `j` for `j < 48`, and the source's feature
    `j - 48` less the target's otherwise. -/
def inRow (a b : Fin 48 → EReal) (j : Fin 96) : EReal :=
  if h : j.val < 48 then a ⟨j.val, h⟩
  else b ⟨j.val - 48, by have := j.isLt; omega⟩ - a ⟨j.val - 48, by have := j.isLt; omega⟩

/-- Hidden unit `k`: the input row against column `k` of the first matrix, plus the bias, clipped below at zero. -/
def hid (a b : Fin 48 → EReal) (W1 : Fin 96 → Fin 96 → EReal) (c1 : Fin 96 → EReal) (k : Fin 96) : EReal :=
  max ((∑ j : Fin 96, inRow a b j * W1 j k) + c1 k) 0

/-- Output `o` of the edge: the hidden row against column `o` of the second matrix, plus the second bias. -/
def outRow (a b : Fin 48 → EReal) (W1 : Fin 96 → Fin 96 → EReal) (c1 : Fin 96 → EReal)
    (W2 : Fin 96 → Fin 64 → EReal) (c2 : Fin 64 → EReal) (o : Fin 64) : EReal :=
  (∑ k : Fin 96, hid a b W1 c1 k * W2 k o) + c2 o

/-- The messages of all edges as one array: row `e` is `outRow` of row `e` of the two feature tables. -/
def edgeOut (hi hj : (⟨2, ![800000, 48]⟩ : Shape).Idx → EReal) (W1 : (⟨2, ![96, 96]⟩ : Shape).Idx → EReal)
    (c1 : Fin 96 → EReal) (W2 : (⟨2, ![96, 64]⟩ : Shape).Idx → EReal) (c2 : Fin 64 → EReal) :
    (⟨2, ![800000, 64]⟩ : Shape).Idx → EReal :=
  fun i => outRow (fun j => hi (ix2 (⟨(i 0).val, idx2_lt0 i⟩ : Fin 800000) j))
    (fun j => hj (ix2 (⟨(i 0).val, idx2_lt0 i⟩ : Fin 800000) j))
    (fun j k => W1 (ix2 j k)) c1 (fun k o => W2 (ix2 k o)) c2 (⟨(i 1).val, idx2_lt1 i⟩ : Fin 64)

/-- `edgeOut` at the index with coordinates `e`, `o`. -/
theorem edgeOut_ix2 (hi hj : (⟨2, ![800000, 48]⟩ : Shape).Idx → EReal) (W1 : (⟨2, ![96, 96]⟩ : Shape).Idx → EReal)
    (c1 : Fin 96 → EReal) (W2 : (⟨2, ![96, 64]⟩ : Shape).Idx → EReal) (c2 : Fin 64 → EReal)
    (e : Fin 800000) (o : Fin 64) :
    edgeOut hi hj W1 c1 W2 c2 (ix2 e o)
      = outRow (fun j => hi (ix2 e j)) (fun j => hj (ix2 e j)) (fun j k => W1 (ix2 j k)) c1
          (fun k o => W2 (ix2 k o)) c2 o := rfl

/-- Two [n0, n1] arrays that agree at every pair of coordinates are equal. -/
theorem ext_ix2 {α : Type} {n0 n1 : Nat} (f g : (⟨2, ![n0, n1]⟩ : Shape).Idx → α)
    (h : ∀ (p : Fin n0) (q : Fin n1), f (ix2 p q) = g (ix2 p q)) : f = g :=
  funext fun j => by rw [eq_ix2 j]; exact h _ _

end Cert.EdgeMlp

end
-- ==== Proof.Payload.lean ====
/-
  What the kernel's body stores, entry by entry.

  At one grid point the body loads a block of 4000 target rows and 4000 source rows (48 features each), the two
  weight matrices and the two biases (each bias as a one-row block), and stores one [4000, 64] block. Read as exact
  extended reals (a change of float format is the identity, a matrix product into a zero accumulator is the plain
  sum over the contracted index), entry (p, q) of the stored block is `EdgeMlp.outRow` of row `p` of the two
  loaded feature blocks: the rows do not interact.
-/
import proofs.«428902_j15427522527435_1_alg».proof.Proof.Gen.KernelIdeal.Skeleton
import proofs.«428902_j15427522527435_1_alg».proof.Proof.EdgeMlp
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.EdgeMlp

/-! ## The two matrix products at an index

The operand indices of an [M, K] x [K, N] product at output (p, n) and contraction position k are (p, k) and (k, n):
one lemma per axis of each product's dimension record, then the sum re-indexed to `Fin K`. -/

theorem lhsA_0 (i : S4000x96.Idx) (q : dot_S4000x96_S96x96_S4000x96_1_0_0_1_n_n.contr.Idx) :
    (dot_S4000x96_S96x96_S4000x96_1_0_0_1_n_n.lhsIdx i q 0).val = (i 0).val := by
  unfold DotDims.lhsIdx
  rw [dif_neg (show ¬(0 : Fin S4000x96.rank) ∈ dot_S4000x96_S96x96_S4000x96_1_0_0_1_n_n.lhsBatch by decide), dif_pos (show (0 : Fin S4000x96.rank) ∈ dot_S4000x96_S96x96_S4000x96_1_0_0_1_n_n.lhsNonContracting by decide)]
  rfl
theorem lhsA_1 (i : S4000x96.Idx) (q : dot_S4000x96_S96x96_S4000x96_1_0_0_1_n_n.contr.Idx) :
    (dot_S4000x96_S96x96_S4000x96_1_0_0_1_n_n.lhsIdx i q 1).val = (q ⟨0, by decide⟩).val :=
  dot_S4000x96_S96x96_S4000x96_1_0_0_1_n_n.lhsIdx_val_of_single rfl i q
theorem rhsA_0 (i : S4000x96.Idx) (q : dot_S4000x96_S96x96_S4000x96_1_0_0_1_n_n.contr.Idx) :
    (dot_S4000x96_S96x96_S4000x96_1_0_0_1_n_n.rhsIdx i q 0).val = (q ⟨0, by decide⟩).val :=
  dot_S4000x96_S96x96_S4000x96_1_0_0_1_n_n.rhsIdx_val_of_single rfl i q
theorem rhsA_1 (i : S4000x96.Idx) (q : dot_S4000x96_S96x96_S4000x96_1_0_0_1_n_n.contr.Idx) :
    (dot_S4000x96_S96x96_S4000x96_1_0_0_1_n_n.rhsIdx i q 1).val = (i 1).val := by
  unfold DotDims.rhsIdx
  rw [dif_neg (show ¬(1 : Fin S96x96.rank) ∈ dot_S4000x96_S96x96_S4000x96_1_0_0_1_n_n.rhsBatch by decide), dif_pos (show (1 : Fin S96x96.rank) ∈ dot_S4000x96_S96x96_S4000x96_1_0_0_1_n_n.rhsNonContracting by decide)]
  rfl

/-- The first product, into the zero accumulator: entry (p, n) is the sum over k of left (p, k) times right (k, n). -/
theorem matmulA_apply (l : FVec Ideal S4000x96 .bf16) (r : FVec Ideal S96x96 .bf16) (p : Fin 4000) (n : Fin 96) :
    matmul dot_S4000x96_S96x96_S4000x96_1_0_0_1_n_n none l r (constant S4000x96 .f32 0x00000000#32) (ix2 p n)
      = ∑ k : Fin 96, l (ix2 p k) * r (ix2 k n) := by
  refine (Ideal.matmul_constant_zero_apply dot_S4000x96_S96x96_S4000x96_1_0_0_1_n_n none l r (ix2 p n)).trans ?_
  rw [← Equiv.sum_comp (contrEquiv1 dot_S4000x96_S96x96_S4000x96_1_0_0_1_n_n 96 rfl rfl).symm]
  refine Finset.sum_congr rfl fun k _ => ?_
  have hk := contrEquiv1_symm_val dot_S4000x96_S96x96_S4000x96_1_0_0_1_n_n 96 rfl rfl k
  have el : dot_S4000x96_S96x96_S4000x96_1_0_0_1_n_n.lhsIdx (ix2 p n) ((contrEquiv1 dot_S4000x96_S96x96_S4000x96_1_0_0_1_n_n 96 rfl rfl).symm k) = ix2 p k := funext fun a => Fin.ext (by
    match a with
    | ⟨0, _⟩ => exact lhsA_0 _ _
    | ⟨1, _⟩ => exact (lhsA_1 _ _).trans hk)
  have er : dot_S4000x96_S96x96_S4000x96_1_0_0_1_n_n.rhsIdx (ix2 p n) ((contrEquiv1 dot_S4000x96_S96x96_S4000x96_1_0_0_1_n_n 96 rfl rfl).symm k) = ix2 k n := funext fun a => Fin.ext (by
    match a with
    | ⟨0, _⟩ => exact (rhsA_0 _ _).trans hk
    | ⟨1, _⟩ => exact rhsA_1 _ _)
  rw [el, er]

theorem lhsB_0 (i : S4000x64.Idx) (q : dot_S4000x96_S96x64_S4000x64_1_0_0_1_n_n.contr.Idx) :
    (dot_S4000x96_S96x64_S4000x64_1_0_0_1_n_n.lhsIdx i q 0).val = (i 0).val := by
  unfold DotDims.lhsIdx
  rw [dif_neg (show ¬(0 : Fin S4000x96.rank) ∈ dot_S4000x96_S96x64_S4000x64_1_0_0_1_n_n.lhsBatch by decide), dif_pos (show (0 : Fin S4000x96.rank) ∈ dot_S4000x96_S96x64_S4000x64_1_0_0_1_n_n.lhsNonContracting by decide)]
  rfl
theorem lhsB_1 (i : S4000x64.Idx) (q : dot_S4000x96_S96x64_S4000x64_1_0_0_1_n_n.contr.Idx) :
    (dot_S4000x96_S96x64_S4000x64_1_0_0_1_n_n.lhsIdx i q 1).val = (q ⟨0, by decide⟩).val :=
  dot_S4000x96_S96x64_S4000x64_1_0_0_1_n_n.lhsIdx_val_of_single rfl i q
theorem rhsB_0 (i : S4000x64.Idx) (q : dot_S4000x96_S96x64_S4000x64_1_0_0_1_n_n.contr.Idx) :
    (dot_S4000x96_S96x64_S4000x64_1_0_0_1_n_n.rhsIdx i q 0).val = (q ⟨0, by decide⟩).val :=
  dot_S4000x96_S96x64_S4000x64_1_0_0_1_n_n.rhsIdx_val_of_single rfl i q
theorem rhsB_1 (i : S4000x64.Idx) (q : dot_S4000x96_S96x64_S4000x64_1_0_0_1_n_n.contr.Idx) :
    (dot_S4000x96_S96x64_S4000x64_1_0_0_1_n_n.rhsIdx i q 1).val = (i 1).val := by
  unfold DotDims.rhsIdx
  rw [dif_neg (show ¬(1 : Fin S96x64.rank) ∈ dot_S4000x96_S96x64_S4000x64_1_0_0_1_n_n.rhsBatch by decide), dif_pos (show (1 : Fin S96x64.rank) ∈ dot_S4000x96_S96x64_S4000x64_1_0_0_1_n_n.rhsNonContracting by decide)]
  rfl

/-- The second product likewise: entry (p, n) is the sum over k of left (p, k) times right (k, n). -/
theorem matmulB_apply (l : FVec Ideal S4000x96 .bf16) (r : FVec Ideal S96x64 .bf16) (p : Fin 4000) (n : Fin 64) :
    matmul dot_S4000x96_S96x64_S4000x64_1_0_0_1_n_n none l r (constant S4000x64 .f32 0x00000000#32) (ix2 p n)
      = ∑ k : Fin 96, l (ix2 p k) * r (ix2 k n) := by
  refine (Ideal.matmul_constant_zero_apply dot_S4000x96_S96x64_S4000x64_1_0_0_1_n_n none l r (ix2 p n)).trans ?_
  rw [← Equiv.sum_comp (contrEquiv1 dot_S4000x96_S96x64_S4000x64_1_0_0_1_n_n 96 rfl rfl).symm]
  refine Finset.sum_congr rfl fun k _ => ?_
  have hk := contrEquiv1_symm_val dot_S4000x96_S96x64_S4000x64_1_0_0_1_n_n 96 rfl rfl k
  have el : dot_S4000x96_S96x64_S4000x64_1_0_0_1_n_n.lhsIdx (ix2 p n) ((contrEquiv1 dot_S4000x96_S96x64_S4000x64_1_0_0_1_n_n 96 rfl rfl).symm k) = ix2 p k := funext fun a => Fin.ext (by
    match a with
    | ⟨0, _⟩ => exact lhsB_0 _ _
    | ⟨1, _⟩ => exact (lhsB_1 _ _).trans hk)
  have er : dot_S4000x96_S96x64_S4000x64_1_0_0_1_n_n.rhsIdx (ix2 p n) ((contrEquiv1 dot_S4000x96_S96x64_S4000x64_1_0_0_1_n_n 96 rfl rfl).symm k) = ix2 k n := funext fun a => Fin.ext (by
    match a with
    | ⟨0, _⟩ => exact (rhsB_0 _ _).trans hk
    | ⟨1, _⟩ => exact rhsB_1 _ _)
  rw [el, er]

/-! ## The joined input row and the two biases -/

/-- Entry (p, j) of the two feature blocks joined along the feature axis, the second piece being source minus target,
    is `inRow` of row `p` of the two blocks. -/
theorem cat_apply (u w : FVec Ideal S4000x48 .f32) (p : Fin 4000) (j : Fin 96) :
    concatenate S4000x96 1 [⟨S4000x48, u⟩, ⟨S4000x48, subf w u⟩] concatenates_S4000x48_S4000x48_S4000x96_d1 (ix2 p j)
      = inRow (fun a => u (ix2 p a)) (fun a => w (ix2 p a)) j := by
  unfold inRow
  by_cases h : j.val < 48
  · rw [dif_pos h]
    exact concatenate_pair_apply_left (1 : Fin S4000x96.rank) u (subf w u) concatenates_S4000x48_S4000x48_S4000x96_d1
      (ix2 p j) rfl (ix2 p ⟨j.val, h⟩) (fun b => match b with
        | ⟨0, _⟩ => rfl
        | ⟨1, _⟩ => rfl)
  · rw [dif_neg h]
    have hj := j.isLt
    refine (concatenate_pair_apply_right (1 : Fin S4000x96.rank) u (subf w u) concatenates_S4000x48_S4000x48_S4000x96_d1
      (ix2 p j) rfl rfl (ix2 p ⟨j.val - 48, by omega⟩) (fun b => match b with
        | ⟨0, _⟩ => fun _ => rfl
        | ⟨1, _⟩ => fun hb => absurd rfl hb) (by show (j.val - 48) + 48 = j.val; omega)).trans ?_
    rfl

/-- The first bias, a one-row block laid under every row: entry (p, k) is the bias's entry k. -/
theorem biasA_apply (x3 : FVec Ideal S1x96 .f32) (p : Fin 4000) (k : Fin 96) :
    broadcastTo S4000x96 x3 broadcasts_S1x96_S4000x96 (ix2 p k) = x3 (ix2 0 k) :=
  broadcastTo_apply x3 broadcasts_S1x96_S4000x96 (ix2 p k) (ix2 0 k) (fun a => match a with
    | ⟨0, _⟩ => by show (0 : Nat) = if (1 : Nat) = 1 then 0 else p.val; rw [if_pos rfl]
    | ⟨1, _⟩ => by show k.val = if (96 : Nat) = 1 then 0 else k.val; rw [if_neg (by decide)])

/-- The second bias likewise: entry (p, o) is the bias's entry o. -/
theorem biasB_apply (x5 : FVec Ideal S1x64 .f32) (p : Fin 4000) (o : Fin 64) :
    broadcastTo S4000x64 x5 broadcasts_S1x64_S4000x64 (ix2 p o) = x5 (ix2 0 o) :=
  broadcastTo_apply x5 broadcasts_S1x64_S4000x64 (ix2 p o) (ix2 0 o) (fun a => match a with
    | ⟨0, _⟩ => by show (0 : Nat) = if (1 : Nat) = 1 then 0 else p.val; rw [if_pos rfl]
    | ⟨1, _⟩ => by show o.val = if (64 : Nat) = 1 then 0 else o.val; rw [if_neg (by decide)])

/-! ## The stored block -/

/-- Entry (p, q) of the block the body stores, from the blocks it loads: the edge network's output `q` on row `p`. -/
theorem pay_apply (x0 x1 : Vec Ideal S4000x48 .f32) (x2 : Vec Ideal S96x96 .f32) (x3 : Vec Ideal S1x96 .f32)
    (x4 : Vec Ideal S96x64 .f32) (x5 : Vec Ideal S1x64 .f32) (p : Fin 4000) (q : Fin 64) :
    k0_pay1 x0 x1 x2 x3 x4 x5 (ix2 p q)
      = outRow (fun a => x0 (ix2 p a)) (fun a => x1 (ix2 p a)) (fun j k => x2 (ix2 j k)) (fun k => x3 (ix2 0 k))
          (fun k o => x4 (ix2 k o)) (fun o => x5 (ix2 0 o)) q := by
  unfold k0_pay1
  rw [shapeCast_self x0, shapeCast_self x1, shapeCast_self x3, shapeCast_self x5]
  unfold outRow
  rw [addf_apply, matmulB_apply, biasB_apply]
  refine congrArg (· + x5 (ix2 0 q)) (Finset.sum_congr rfl fun k _ => ?_)
  rw [truncf_apply, truncf_apply, maximumf_apply, addf_apply, matmulA_apply, biasA_apply, broadcast_apply]
  unfold hid
  refine congrArg (· * x4 (ix2 k q)) ?_
  refine congrArg₂ max (congrArg (· + x3 (ix2 0 k)) (Finset.sum_congr rfl fun j _ => ?_)) ?_
  · rw [truncf_apply, truncf_apply, cat_apply]
  · exact Ideal.ofBits_zero_f32

end Cert.KernelIdeal.Body

end
-- ==== Proof.Region.lean ====
/-
  The array the kernel's region leaves: the messages of all 800000 edges.

  The region runs the body at 200 grid points; point `t` loads rows `t * 4000 .. t * 4000 + 3999` of the two gathered
  feature arrays and the whole of the two matrices and the two one-row biases, and writes back rows
  `t * 4000 ..` of the output. By `Body.pay_apply` the block written back at `t` is block `t` of ONE whole-array
  function, `Msg`: the edge network (`EdgeMlp.edgeOut`) of the arrays as the region finds them. The 200 blocks tile
  the output (row `r` is in block `r / 4000`), so the array after the run is `Msg`.

  The arrays the region finds are long host computations (a gather behind a range test). Every block read is
  therefore stated for an ABSTRACT array and only then applied to them, so that nothing looks inside them.
-/
import proofs.«428902_j15427522527435_1_alg».proof.Proof.Gen.KernelIdeal.Frame
import proofs.«428902_j15427522527435_1_alg».proof.Proof.Payload
import Idealize.ShloMosaic.Lib.Pipeline.Value

noncomputable section

namespace Cert.KernelIdeal.Region

open Cert.KernelIdeal Cert.KernelIdeal.Gen Idealize.ShloMosaic Idealize.ShloMosaic.TcCoe Idealize.SL.Sem
open Idealize.ShloMosaic.Pipeline (Dat)
open Idealize.ShloMosaic.ValueIdx Cert.EdgeMlp Cert.KernelIdeal.Body

variable (m : (ℓ : Loc nD τ sig) → Buf (Elt Ideal) ℓ) (ρ : Dev nD → PrngReg)

theorem hz : (![0, 0] : Fin 2 → Nat) = fun _ => 0 := funext fun a => by fin_cases a <;> rfl

/-- The messages of all edges, from the arrays as the region finds them: the two gathered feature arrays, the two
    matrices, and the two biases (each a one-row array, read along its row). -/
def Msg (c : Dev nD) : S800000x64.Idx → EReal :=
  edgeOut (V m c main_v6) (V m c main_v7) (V m c main_arg2) (fun k => V m c main_v8 (ix2 0 k)) (V m c main_arg4)
    (fun o => V m c main_v9 (ix2 0 o))

/-- The printed index maps, decided over the 200 grid points: the three edge-indexed windows are at block row `t`,
    the four small windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem ht200 (t : Fin cfg0.N) : t.val < 200 := N_0 ▸ t.isLt

/-! ## Blocks read off abstract arrays

Each lemma reads a window's block at grid point `t` off ANY array of the window's shape: rows `t * 4000 ..` of the
three edge-indexed arrays, the whole of the four small ones. (The arrays the region really finds are long host
computations; stated for an abstract array, nothing here looks inside them.) -/

theorem read0 (A : (⟨S800000x48, .f32⟩ : BufTy).Contents (Elt Ideal)) (t : Fin cfg0.N) (p : Fin 4000) (a : Fin 48) :
    ((cfg0.win 0).blk t).view.read (Elt Ideal) A (ix2 p a)
      = A (ix2 (⟨t.val * 4000 + p.val, by have := ht200 t; have := p.isLt; omega⟩ : Fin 800000) a) := by
  obtain ⟨e0, e1, -⟩ := idx_facts t
  show A (((cfg0.win 0).blk t).view.emb (ix2 p a)) = _
  refine congrArg A (funext fun b => Fin.ext ?_)
  match b with
  | ⟨0, _⟩ => show win0_0.index t (0 : Fin 2) * 4000 + 1 * p.val = t.val * 4000 + p.val; omega
  | ⟨1, _⟩ => show win0_0.index t (1 : Fin 2) * 48 + 1 * a.val = a.val; omega

theorem read1 (A : (⟨S800000x48, .f32⟩ : BufTy).Contents (Elt Ideal)) (t : Fin cfg0.N) (p : Fin 4000) (a : Fin 48) :
    ((cfg0.win 1).blk t).view.read (Elt Ideal) A (ix2 p a)
      = A (ix2 (⟨t.val * 4000 + p.val, by have := ht200 t; have := p.isLt; omega⟩ : Fin 800000) a) := by
  obtain ⟨-, -, e0, e1, -⟩ := idx_facts t
  show A (((cfg0.win 1).blk t).view.emb (ix2 p a)) = _
  refine congrArg A (funext fun b => Fin.ext ?_)
  match b with
  | ⟨0, _⟩ => show win0_1.index t (0 : Fin 2) * 4000 + 1 * p.val = t.val * 4000 + p.val; omega
  | ⟨1, _⟩ => show win0_1.index t (1 : Fin 2) * 48 + 1 * a.val = a.val; omega

theorem read2 (A : (⟨S96x96, .f32⟩ : BufTy).Contents (Elt Ideal)) (t : Fin cfg0.N) (j k : Fin 96) :
    ((cfg0.win 2).blk t).view.read (Elt Ideal) A (ix2 j k) = A (ix2 j k) := by
  obtain ⟨-, -, -, -, e0, e1, -⟩ := idx_facts t
  show A (((cfg0.win 2).blk t).view.emb (ix2 j k)) = _
  refine congrArg A (funext fun b => Fin.ext ?_)
  match b with
  | ⟨0, _⟩ => show win0_2.index t (0 : Fin 2) * 96 + 1 * j.val = j.val; omega
  | ⟨1, _⟩ => show win0_2.index t (1 : Fin 2) * 96 + 1 * k.val = k.val; omega

theorem read3 (A : (⟨S1x96, .f32⟩ : BufTy).Contents (Elt Ideal)) (t : Fin cfg0.N) (k : Fin 96) :
    ((cfg0.win 3).blk t).view.read (Elt Ideal) A (ix2 0 k) = A (ix2 0 k) := by
  obtain ⟨-, -, -, -, -, -, e0, e1, -⟩ := idx_facts t
  show A (((cfg0.win 3).blk t).view.emb (ix2 0 k)) = _
  refine congrArg A (funext fun b => Fin.ext ?_)
  match b with
  | ⟨0, _⟩ => show win0_3.index t (0 : Fin 2) * 1 + 1 * 0 = 0; omega
  | ⟨1, _⟩ => show win0_3.index t (1 : Fin 2) * 96 + 1 * k.val = k.val; omega

theorem read4 (A : (⟨S96x64, .f32⟩ : BufTy).Contents (Elt Ideal)) (t : Fin cfg0.N) (k : Fin 96) (o : Fin 64) :
    ((cfg0.win 4).blk t).view.read (Elt Ideal) A (ix2 k o) = A (ix2 k o) := by
  obtain ⟨-, -, -, -, -, -, -, -, e0, e1, -⟩ := idx_facts t
  show A (((cfg0.win 4).blk t).view.emb (ix2 k o)) = _
  refine congrArg A (funext fun b => Fin.ext ?_)
  match b with
  | ⟨0, _⟩ => show win0_4.index t (0 : Fin 2) * 96 + 1 * k.val = k.val; omega
  | ⟨1, _⟩ => show win0_4.index t (1 : Fin 2) * 64 + 1 * o.val = o.val; omega

theorem read5 (A : (⟨S1x64, .f32⟩ : BufTy).Contents (Elt Ideal)) (t : Fin cfg0.N) (o : Fin 64) :
    ((cfg0.win 5).blk t).view.read (Elt Ideal) A (ix2 0 o) = A (ix2 0 o) := by
  obtain ⟨-, -, -, -, -, -, -, -, -, -, e0, e1, -⟩ := idx_facts t
  show A (((cfg0.win 5).blk t).view.emb (ix2 0 o)) = _
  refine congrArg A (funext fun b => Fin.ext ?_)
  match b with
  | ⟨0, _⟩ => show win0_5.index t (0 : Fin 2) * 1 + 1 * 0 = 0; omega
  | ⟨1, _⟩ => show win0_5.index t (1 : Fin 2) * 64 + 1 * o.val = o.val; omega

theorem read6 (A : (⟨S800000x64, .f32⟩ : BufTy).Contents (Elt Ideal)) (t : Fin cfg0.N) (p : Fin 4000) (o : Fin 64) :
    ((cfg0.win 6).blk t).view.read (Elt Ideal) A (ix2 p o)
      = A (ix2 (⟨t.val * 4000 + p.val, by have := ht200 t; have := p.isLt; omega⟩ : Fin 800000) o) := by
  obtain ⟨-, -, -, -, -, -, -, -, -, -, -, -, e0, e1⟩ := idx_facts t
  show A (((cfg0.win 6).blk t).view.emb (ix2 p o)) = _
  refine congrArg A (funext fun b => Fin.ext ?_)
  match b with
  | ⟨0, _⟩ => show win0_6.index t (0 : Fin 2) * 4000 + 1 * p.val = t.val * 4000 + p.val; omega
  | ⟨1, _⟩ => show win0_6.index t (1 : Fin 2) * 64 + 1 * o.val = o.val; omega

/-- The output window is not cut: what a point writes back is the whole stored block. -/
theorem cut6 (X : Vec Ideal S4000x64 .f32) (t : Fin cfg0.N) : (cfg0.win 6).cut (grid0.coords t) X = X := rfl

/-! ## What a point writes back, and the array after the run -/

/-- WHAT POINT `t` WRITES BACK is block `t` of the messages array. -/
theorem flushed6_eq (c : Dev nD) (t : Fin cfg0.N) :
    (dats m 0 c).flushed 6 t = ((cfg0.win 6).blk t).view.read (Elt Ideal) (Msg m c) := by
  show (cfg0.win 6).cut (grid0.coords t) ((dats m 0 c).after 6 t) = _
  rw [after0_6]
  unfold out0_6
  rw [View.canon_unit_zero hz]
  simp only [View.ld_unit_zero (S := S4000x48) hz, View.ld_unit_zero (S := S96x96) hz, View.ld_unit_zero (S := S1x96) hz,
    View.ld_unit_zero (S := S96x64) hz, View.ld_unit_zero (S := S1x64) hz]
  funext j
  obtain ⟨p, q, rfl⟩ : ∃ (p : Fin 4000) (q : Fin 64), j = ix2 p q := ⟨j 0, j 1, eq_ix2 j⟩
  refine ((congrFun (cut6 (k0_pay1 (iblk m c 0 t) (iblk m c 1 t) (iblk m c 2 t) (iblk m c 3 t) (iblk m c 4 t) (iblk m c 5 t)) t) (ix2 p q)).trans
    ((pay_apply (iblk m c 0 t) (iblk m c 1 t) (iblk m c 2 t) (iblk m c 3 t) (iblk m c 4 t) (iblk m c 5 t) p q).trans ?_)).trans
    (read6 (Msg m c) t p q).symm
  unfold Msg
  rw [edgeOut_ix2]
  have h0 : (fun a => iblk m c 0 t (ix2 p a))
      = fun a => V m c main_v6 (ix2 (⟨t.val * 4000 + p.val, by have := ht200 t; have := p.isLt; omega⟩ : Fin 800000) a) :=
    funext fun a => by unfold iblk; exact read0 (V m c main_v6) t p a
  have h1 : (fun a => iblk m c 1 t (ix2 p a))
      = fun a => V m c main_v7 (ix2 (⟨t.val * 4000 + p.val, by have := ht200 t; have := p.isLt; omega⟩ : Fin 800000) a) :=
    funext fun a => by unfold iblk; exact read1 (V m c main_v7) t p a
  have h2 : (fun j k => iblk m c 2 t (ix2 j k)) = fun j k => V m c main_arg2 (ix2 j k) :=
    funext fun j => funext fun k => by unfold iblk; exact read2 (V m c main_arg2) t j k
  have h3 : (fun k => iblk m c 3 t (ix2 0 k)) = fun k => V m c main_v8 (ix2 0 k) :=
    funext fun k => by unfold iblk; exact read3 (V m c main_v8) t k
  have h4 : (fun k o => iblk m c 4 t (ix2 k o)) = fun k o => V m c main_arg4 (ix2 k o) :=
    funext fun k => funext fun o => by unfold iblk; exact read4 (V m c main_arg4) t k o
  have h5 : (fun o => iblk m c 5 t (ix2 0 o)) = fun o => V m c main_v9 (ix2 0 o) :=
    funext fun o => by unfold iblk; exact read5 (V m c main_v9) t o
  rw [h0, h1, h2, h3, h4, h5]

/-- An index of the output array is in point `t`'s block iff each coordinate is in the block's range on its axis. -/
theorem mem_blk6 (t : Fin cfg0.N) (i : S800000x64.Idx) :
    i ∈ ((cfg0.win 6).blk t).view.set ↔ ∀ a : Fin 2, win0_6.index t a * S4000x64.size a ≤ (i a).val ∧ (i a).val < win0_6.index t a * S4000x64.size a + S4000x64.size a := by
  show i ∈ ((View.whole main_v10).slice (win0_6.rect t)).set ↔ _
  rw [View.set_slice_whole, Rect.mem_set_unit]
  exact Iff.rfl

/-- THE BLOCKS TILE THE OUTPUT: row `r` of the output is in the block of point `r / 4000`. -/
theorem cover6 (i : S800000x64.Idx) :
    ∃ t : Fin cfg0.N, (cfg0.win 6).flush t = true ∧ i ∈ ((cfg0.win 6).blk t).view.set := by
  have hi0 : (i 0).val < 800000 := (i 0).isLt
  have hi1 : (i 1).val < 64 := (i 1).isLt
  have hlt : (i 0).val / 4000 < cfg0.N := lt_of_lt_of_eq (by omega : (i 0).val / 4000 < 200) N_0.symm
  obtain ⟨-, -, -, -, -, -, -, -, -, -, -, -, e0, e1⟩ := idx_facts ⟨(i 0).val / 4000, hlt⟩
  have e0' : win0_6.index ⟨(i 0).val / 4000, hlt⟩ (0 : Fin 2) = (i 0).val / 4000 := e0
  refine ⟨⟨(i 0).val / 4000, hlt⟩, flush0_6 _, ?_⟩
  rw [mem_blk6]
  intro a
  match a with
  | ⟨0, _⟩ =>
    show win0_6.index ⟨(i 0).val / 4000, hlt⟩ (0 : Fin 2) * 4000 ≤ (i 0).val ∧ (i 0).val < win0_6.index ⟨(i 0).val / 4000, hlt⟩ (0 : Fin 2) * 4000 + 4000
    omega
  | ⟨1, _⟩ =>
    show win0_6.index ⟨(i 0).val / 4000, hlt⟩ (1 : Fin 2) * 64 ≤ (i 1).val ∧ (i 1).val < win0_6.index ⟨(i 0).val / 4000, hlt⟩ (1 : Fin 2) * 64 + 64
    omega

/-- THE ARRAY AFTER THE RUN: the output window's array ends holding the messages of all edges. -/
theorem final6 (c : Dev nD) : (dats m 0 c).arrAt 6 cfg0.N = Msg m c :=
  (dats m 0 c).arrAt_eq_of_cover 6 (Msg m c) (fun t _ => flushed6_eq m c t) cover6

end Cert.KernelIdeal.Region

end
-- ==== Proof.RefMlp.lean ====
/-
  The reference's messages are the edge network of its two gathered tables.

  The reference joins the gathered target rows with (source rows minus target rows), multiplies by the first
  matrix, adds the first bias (a vector laid under every row), clips below at zero, multiplies by the second matrix
  and adds the second bias, each as ONE whole-array operation over all 800000 edges. Read entry by entry through
  the generated read-at-an-index lemmas (a host matrix product at the exact values is the plain sum over the
  contracted index), entry (e, o) of the result is `EdgeMlp.outRow` of row `e` of the two gathered tables: the
  array of messages is `EdgeMlp.edgeOut` of them. The two gathers themselves are not opened.
-/
import proofs.«428902_j15427522527435_1_alg».proof.Proof.Gen.ReferenceIdeal.Read
import proofs.«428902_j15427522527435_1_alg».proof.Proof.EdgeMlp
import Idealize.ShloMosaic.Lib.Pipeline.Value
import Idealize.ShloMosaic.Lib.ValueIdx
import Idealize.ShloMosaic.PureOps.Ideal.Laws

noncomputable section

namespace Cert.ReferenceIdeal.Messages

open Cert.ReferenceIdeal Cert.ReferenceIdeal.Gen Cert.ReferenceIdeal.Read Idealize.ShloMosaic Idealize.ShloMosaic.ValueIdx Cert.EdgeMlp

variable (x0 : (⟨S50000x32, .f32⟩ : BufTy).Contents (Elt Ideal)) (x1 : (⟨S1x16, .f32⟩ : BufTy).Contents (Elt Ideal))
  (x2 : (⟨S96x96, .f32⟩ : BufTy).Contents (Elt Ideal)) (x3 : (⟨S96, .f32⟩ : BufTy).Contents (Elt Ideal))
  (x4 : (⟨S96x64, .f32⟩ : BufTy).Contents (Elt Ideal)) (x5 : (⟨S64, .f32⟩ : BufTy).Contents (Elt Ideal))
  (x6 : (⟨S2x800000, .i32⟩ : BufTy).Contents (Elt Ideal))

/-- Entry (e, j) of two [800000, 48] tables joined along the feature axis, the second piece being the second table
    minus the first, is `inRow` of row `e` of the two tables. -/
theorem cat_apply (u w : FVec Ideal S800000x48 .f32) (e : Fin 800000) (j : Fin 96) :
    concatenate S800000x96 1 [⟨S800000x48, u⟩, ⟨S800000x48, subf w u⟩] concatenates_S800000x48_S800000x48_S800000x96_d1 (ix2 e j)
      = inRow (fun a => u (ix2 e a)) (fun a => w (ix2 e a)) j := by
  unfold inRow
  by_cases h : j.val < 48
  · rw [dif_pos h]
    exact concatenate_pair_apply_left (1 : Fin S800000x96.rank) u (subf w u) concatenates_S800000x48_S800000x48_S800000x96_d1
      (ix2 e j) rfl (ix2 e ⟨j.val, h⟩) (fun b => match b with
        | ⟨0, _⟩ => rfl
        | ⟨1, _⟩ => rfl)
  · rw [dif_neg h]
    have hj := j.isLt
    refine (concatenate_pair_apply_right (1 : Fin S800000x96.rank) u (subf w u) concatenates_S800000x48_S800000x48_S800000x96_d1
      (ix2 e j) rfl rfl (ix2 e ⟨j.val - 48, by omega⟩) (fun b => match b with
        | ⟨0, _⟩ => fun _ => rfl
        | ⟨1, _⟩ => fun hb => absurd rfl hb) (by show (j.val - 48) + 48 = j.val; omega)).trans ?_
    rfl

/-- The joined input of the reference, entry (e, j): `inRow` of row `e` of the gathered target and source tables. -/
theorem joined_apply (e : Fin 800000) (j : Fin 96) :
    val_main_v21 (F := Ideal) x0 x1 x6 (ix2 e j)
      = inRow (fun a => val_main_v12 (F := Ideal) x0 x1 x6 (ix2 e a)) (fun a => val_main_v19 (F := Ideal) x0 x1 x6 (ix2 e a)) j := by
  unfold val_main_v21 val_main_v20
  exact cat_apply _ _ e j

/-- The clipped hidden layer of the reference, entry (e, k): hidden unit `k` of edge `e`. -/
theorem hidden_apply (e : Fin 800000) (k : Fin 96) :
    val_main_v26 (F := Ideal) x0 x1 x2 x3 x6 (ix2 e k)
      = hid (fun a => val_main_v12 (F := Ideal) x0 x1 x6 (ix2 e a)) (fun a => val_main_v19 (F := Ideal) x0 x1 x6 (ix2 e a))
          (fun j k => x2 (ix2 j k)) (fun k => x3 (ix1 k)) k := by
  rw [val_main_v26_apply, val_main_v25_apply, val_main_v22_apply, val_main_v24_apply, val_main_v23_apply,
    val_main_call0_v0_apply, val_main_call0_cst_apply]
  unfold hid
  refine congrArg₂ max (congrArg₂ (· + ·) (Finset.sum_congr rfl fun j _ => ?_) ?_) Ideal.ofBits_zero_f32
  · have hl : lidx_main_v22 (ix2 e k) j = ix2 e j := funext fun a => Fin.ext (by
      match a with
      | ⟨0, _⟩ => rfl
      | ⟨1, _⟩ => rfl)
    have hr : ridx_main_v22 (ix2 e k) j = ix2 j k := funext fun a => Fin.ext (by
      match a with
      | ⟨0, _⟩ => rfl
      | ⟨1, _⟩ => rfl)
    rw [hl, hr, joined_apply]
  · exact congrArg x3 (funext fun a => Fin.ext (by
      match a with
      | ⟨0, _⟩ => rfl))

/-- THE REFERENCE'S MESSAGES: the array it scatters is the edge network of its two gathered tables. -/
theorem messages_eq :
    val_main_v30 (F := Ideal) x0 x1 x2 x3 x4 x5 x6
      = edgeOut (val_main_v12 (F := Ideal) x0 x1 x6) (val_main_v19 (F := Ideal) x0 x1 x6) x2 (fun k => x3 (ix1 k)) x4
          (fun o => x5 (ix1 o)) := by
  refine ext_ix2 _ _ fun e o => ?_
  rw [edgeOut_ix2, val_main_v30_apply, val_main_v27_apply, val_main_v29_apply, val_main_v28_apply]
  unfold outRow
  refine congrArg₂ (· + ·) (Finset.sum_congr rfl fun k _ => ?_) ?_
  · have hl : lidx_main_v27 (ix2 e o) k = ix2 e k := funext fun a => Fin.ext (by
      match a with
      | ⟨0, _⟩ => rfl
      | ⟨1, _⟩ => rfl)
    have hr : ridx_main_v27 (ix2 e o) k = ix2 k o := funext fun a => Fin.ext (by
      match a with
      | ⟨0, _⟩ => rfl
      | ⟨1, _⟩ => rfl)
    rw [hl, hr, hidden_apply]
  · exact congrArg x5 (funext fun a => Fin.ext (by
      match a with
      | ⟨0, _⟩ => rfl))

end Cert.ReferenceIdeal.Messages

end
-- ==== Proof.PreRange.lean ====
/-
  What the precondition says of the edge indices.

  The precondition is a conjunction: every float input is finite, and every entry of the [2, 800000] edge-index
  array is at least 0 and less than 50000 (the number of nodes: the range in which the reference's own `h[dst]`,
  `h[src]` index the node table). It is printed as one `and` of all the tests; its last operand is a reduce by
  `and`, over both axes, of the entrywise test. Read back: where the precondition holds, every entry passes both
  comparisons (signed, as printed).
-/
import proofs.«428902_j15427522527435_1_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.Pre_finite_inputs.Range

open Cert.Pre_finite_inputs Idealize.ShloMosaic

variable [Cert.Pre_finite_inputs.Facts]

instance : Subsingleton S_.Idx := ⟨fun a b => funext fun d => d.elim0⟩

/-- Where the precondition holds, every edge index is in [0, 50000): both printed comparisons are 1 at every entry. -/
theorem edge_index_range (x0 : FVec Ideal S50000x32 .f32) (x1 : FVec Ideal S1x16 .f32) (x2 : FVec Ideal S96x96 .f32)
    (x3 : FVec Ideal S96 .f32) (x4 : FVec Ideal S96x64 .f32) (x5 : FVec Ideal S64 .f32) (x6 : IVec S2x800000 32)
    (h : fn (F := Ideal) x0 x1 x2 x3 x4 x5 x6 = fun _ => 1#1) (i : S2x800000.Idx) :
    IntOp.cmpi .sge (x6 i) 0#32 = 1#1 ∧ IntOp.cmpi .slt (x6 i) 50000#32 = 1#1 := by
  have h0 := congrFun h ValueIdx.ix0
  dsimp only [fn, fn_part1, fn_part2] at h0
  have h1 := (IntOp.andi_eq_one.1 h0).2
  have h2 := Host.reduce_andi_all _ _ _ _ _ h1 i
  exact IntOp.andi_eq_one.1 h2

end Cert.Pre_finite_inputs.Range

end
-- ==== Proof.KernelOut.lean ====
/-
  The kernel program's result, as the reference's own function of the launch memory.

  After the region the kernel's program scatter-adds the messages into a zero [50000, 64] array at the target
  indices. The region leaves the messages array `Region.Msg` (the edge network of the two taken tables); under the
  precondition every edge index is in [0, 50000), so the two takes are the plain gathers at the wrapped indices
  (`Take.takeFill_eq_gather`), which are the reference's two gathers term for term; the reference's messages are the
  same edge network of them (`Messages.messages_eq`); and the scatter-add after the region is the reference's
  scatter-add of the same target column. So the result buffer ends at the reference's last stage
  (`Read.val_main_v33`) of the kernel's own argument arrays. Neither gather nor the scatter-add is opened.
-/
import proofs.«428902_j15427522527435_1_alg».proof.Defs
import proofs.«428902_j15427522527435_1_alg».proof.Proof.Gen.KernelIdeal.Frame
import proofs.«428902_j15427522527435_1_alg».proof.Proof.Gen.Pre_finite_inputs
import proofs.«428902_j15427522527435_1_alg».proof.Proof.HostSide
import proofs.«428902_j15427522527435_1_alg».proof.Proof.Region
import proofs.«428902_j15427522527435_1_alg».proof.Proof.RefMlp
import proofs.«428902_j15427522527435_1_alg».proof.Proof.PreRange
import Idealize.ShloMosaic.Lib.StableHlo.Run

noncomputable section

namespace Cert.KernelIdeal.Out

open Cert.KernelIdeal Cert.KernelIdeal.Gen Idealize.ShloMosaic Idealize.ShloMosaic.TcCoe Idealize.SL.Sem Idealize.ShloMosaic.StableHlo
open Idealize.ShloMosaic.ValueIdx Cert.EdgeMlp Cert.KernelIdeal.Take Cert.KernelIdeal.HostSide Cert.KernelIdeal.Region

variable (m : (ℓ : Loc nD τ sig) → Buf (Elt Ideal) ℓ) (ρ : Dev nD → PrngReg)

/-! ## The small buffers the region and the tail read -/

set_option maxHeartbeats 1000000 in
/-- The target-index vector as the region (and the scatter after it) finds it: row 1 of the edge-index array. -/
theorem V_v5 (c : Dev nD) : (V m c main_v5 : S800000.Idx → BitVec 32) = dst m c := by
  unfold dst
  dsimp only [V, V0]
  simp only [hostOps0, hostOps0_1, hostOps0_2, hostOps0_3, List.flatten_cons, List.flatten_nil, List.append_nil, List.cons_append, List.nil_append]
  after_results_simp
  rfl

set_option maxHeartbeats 1000000 in
/-- The first bias as the region finds it: the bias vector as a one-row array. -/
theorem V_v8 (c : Dev nD) : (V m c main_v8 : S1x96.Idx → EReal) = shapeCast S1x96 (m ((c : Thread nD τ).loc main_arg3)) shapeCasts_S96_S1x96 := by
  dsimp only [V, V0]
  simp only [hostOps0, hostOps0_1, hostOps0_2, hostOps0_3, List.flatten_cons, List.flatten_nil, List.append_nil, List.cons_append, List.nil_append]
  after_results_simp
  rfl

set_option maxHeartbeats 1000000 in
/-- The second bias as the region finds it: the bias vector as a one-row array. -/
theorem V_v9 (c : Dev nD) : (V m c main_v9 : S1x64.Idx → EReal) = shapeCast S1x64 (m ((c : Thread nD τ).loc main_arg5)) shapeCasts_S64_S1x64 := by
  dsimp only [V, V0]
  simp only [hostOps0, hostOps0_1, hostOps0_2, hostOps0_3, List.flatten_cons, List.flatten_nil, List.append_nil, List.cons_append, List.nil_append]
  after_results_simp
  rfl

/-- The one-row first bias read along its row is the bias vector. -/
theorem bias1_apply (c : Dev nD) (k : Fin 96) :
    (V m c main_v8 : S1x96.Idx → EReal) (ix2 0 k) = m ((c : Thread nD τ).loc main_arg3) (ix1 k) := by
  rw [V_v8]
  exact shapeCast_apply (m ((c : Thread nD τ).loc main_arg3)) shapeCasts_S96_S1x96 (ix2 0 k) (ix1 k) (by
    show ((⟨1, ![96]⟩ : Shape).rowMajor (ix1 k)).val = ((⟨2, ![1, 96]⟩ : Shape).rowMajor (ix2 0 k)).val
    rw [Shape.rowMajor_val_one, Shape.rowMajor_val_two]
    show k.val = 0 * 96 + k.val
    omega)

/-- The one-row second bias read along its row is the bias vector. -/
theorem bias2_apply (c : Dev nD) (o : Fin 64) :
    (V m c main_v9 : S1x64.Idx → EReal) (ix2 0 o) = m ((c : Thread nD τ).loc main_arg5) (ix1 o) := by
  rw [V_v9]
  exact shapeCast_apply (m ((c : Thread nD τ).loc main_arg5)) shapeCasts_S64_S1x64 (ix2 0 o) (ix1 o) (by
    show ((⟨1, ![64]⟩ : Shape).rowMajor (ix1 o)).val = ((⟨2, ![1, 64]⟩ : Shape).rowMajor (ix2 0 o)).val
    rw [Shape.rowMajor_val_one, Shape.rowMajor_val_two]
    show o.val = 0 * 64 + o.val
    omega)

/-! ## The scatter-add after the region -/

/-- The result buffer after the host lines that follow the region: the scatter-add, into zeros, of the region's output
    array at the target-index column. -/
theorem tail_eq (c : Dev nD) :
    (Pipeline.afterTail₀ cfgs (dats m) 0 (V0 m) [hostOps1] c main_v13 : S50000x64.Idx → EReal)
      = Host.scatterAdd scatter_S50000x64_S800000x1_S800000x64_1_0_0_1
          (broadcastInDim S50000x64 ![] bcast_S_S50000x64 (constant (F := Ideal) S_ .f32 0x00000000#32))
          (broadcastInDim S800000x1 ![0] bcast_S800000_S800000x1_0 (V m c main_v5))
          ((dats m 0 c).arrAt 6 cfg0.N) := by
  unfold Pipeline.afterTail₀
  show StableHlo.after hostOps1 _ (Proc.devRef .tc main_v13) = _
  simp only [hostOps1]
  after_results
  have h5 : Pipeline.withArrays (cfgs 0).spec c (V0 m c) (fun w => (dats m 0 c).arrAt w (cfgs 0).N) (Proc.devRef .tc main_v5)
      = V0 m c (Proc.devRef .tc main_v5) :=
    Pipeline.withArrays_of_ne _ c (V0 m c) _ main_v5 (by exact (by decide : ∀ w, Pipeline.arrRef spec0 w ≠ main_v5))
  have h10 : Pipeline.withArrays (cfgs 0).spec c (V0 m c) (fun w => (dats m 0 c).arrAt w (cfgs 0).N) (Proc.devRef .tc main_v10)
      = (dats m 0 c).arrAt 6 cfg0.N :=
    Pipeline.withArrays_arr spec0 launch0.win.arr_inj c (V0 m c) (fun w => (dats m 0 c).arrAt w (cfgs 0).N) 6
  rw [h5, h10]

/-! ## The messages are the reference's -/

/-- Under the precondition the region's messages array is the reference's messages stage of the kernel's own
    argument arrays. -/
theorem msg_eq (c : Dev nD) (hpre : Cert.Pre_finite_inputs.fn (F := Ideal)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) = fun _ => 1#1) :
    Msg m c = Cert.ReferenceIdeal.Read.val_main_v30 (F := Ideal)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) := by
  have hr := Cert.Pre_finite_inputs.Range.edge_index_range _ _ _ _ _ _ _ hpre
  have hdge : ∀ e, IntOp.cmpi .sge (dst m c e) 0#32 = 1#1 := fun e => (hr _).1
  have hdlt : ∀ e, IntOp.cmpi .slt (dst m c e) 50000#32 = 1#1 := fun e => (hr _).2
  have hsge : ∀ e, IntOp.cmpi .sge (src m c e) 0#32 = 1#1 := fun e => (hr _).1
  have hslt : ∀ e, IntOp.cmpi .slt (src m c e) 50000#32 = 1#1 := fun e => (hr _).2
  have hb1 : (fun k => (V m c main_v8 : S1x96.Idx → EReal) (ix2 0 k)) = fun k => m ((c : Thread nD τ).loc main_arg3) (ix1 k) :=
    funext (bias1_apply m c)
  have hb2 : (fun o => (V m c main_v9 : S1x64.Idx → EReal) (ix2 0 o)) = fun o => m ((c : Thread nD τ).loc main_arg5) (ix1 o) :=
    funext (bias2_apply m c)
  unfold Msg
  rw [hb1, hb2, V_v6, V_v7, V_main_arg2, V_main_arg4, takeFill_eq_gather _ _ hdge hdlt, takeFill_eq_gather _ _ hsge hslt,
    Cert.ReferenceIdeal.Messages.messages_eq]
  have g1 : Host.gather gather_S50000x48_S800000x1_S800000x48_1_0_n_n_0_1_148 (tbl m c) (wrapCol (dst m c))
      = Cert.ReferenceIdeal.Read.val_main_v12 (F := Ideal) (m ((c.tc : Thread nD τ).loc main_arg0)) (m ((c.tc : Thread nD τ).loc main_arg1))
          (m ((c.tc : Thread nD τ).loc main_arg6)) := by
    unfold tbl dst wrapCol
    generalize m ((c.tc : Thread nD τ).loc main_arg0) = a0
    generalize m ((c.tc : Thread nD τ).loc main_arg1) = a1
    generalize m ((c.tc : Thread nD τ).loc main_arg6) = a6
    rfl
  have g2 : Host.gather gather_S50000x48_S800000x1_S800000x48_1_0_n_n_0_1_148 (tbl m c) (wrapCol (src m c))
      = Cert.ReferenceIdeal.Read.val_main_v19 (F := Ideal) (m ((c.tc : Thread nD τ).loc main_arg0)) (m ((c.tc : Thread nD τ).loc main_arg1))
          (m ((c.tc : Thread nD τ).loc main_arg6)) := by
    unfold tbl src wrapCol
    generalize m ((c.tc : Thread nD τ).loc main_arg0) = a0
    generalize m ((c.tc : Thread nD τ).loc main_arg1) = a1
    generalize m ((c.tc : Thread nD τ).loc main_arg6) = a6
    rfl
  rw [g1, g2]

end Cert.KernelIdeal.Out

end
-- ==== Proof.KernelRun.lean ====
/-
  The kernel program's run, with its result named.

  Every weakly fair execution of the kernel's program from a memory satisfying the precondition terminates with the
  result buffer at the reference's last stage (`Read.val_main_v33`: the scatter-add of the messages at the target
  indices) of the kernel's own argument arrays, and the arguments unchanged. The run is the generated frame run; its
  post gives the result buffer as the host tail after the region (`Out.tail_eq`), the region's output array is the
  messages (`Region.final6`, `Out.msg_eq`), and the kernel's scatter-add of them is the reference's.
-/
import proofs.«428902_j15427522527435_1_alg».proof.Proof.KernelOut

noncomputable section

namespace Cert.KernelIdeal.Out

open Cert.KernelIdeal Cert.KernelIdeal.Gen Idealize.ShloMosaic Idealize.ShloMosaic.TcCoe Idealize.SL.Sem Idealize.ShloMosaic.StableHlo
open Idealize.ShloMosaic.ValueIdx Cert.EdgeMlp Cert.KernelIdeal.Take Cert.KernelIdeal.HostSide Cert.KernelIdeal.Region

variable (m : (ℓ : Loc nD τ sig) → Buf (Elt Ideal) ℓ) (ρ : Dev nD → PrngReg)

/-- The result both programs end with, as a function of the kernel's argument arrays on device `c`: the reference's
    last stage. -/
def Res (c : Dev nD) : S50000x64.Idx → EReal :=
  Cert.ReferenceIdeal.Read.val_main_v33 (F := Ideal)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

/-- The kernel program's scatter-add of ANY messages array `X` at the target column of ANY edge-index array is the
    reference's scatter-add of `X` at its target column: the same operation on the same operands. -/
theorem scatter_eq (a6 : IVec S2x800000 32) (X : FVec Ideal S800000x64 .f32) :
    Host.scatterAdd scatter_S50000x64_S800000x1_S800000x64_1_0_0_1
        (broadcastInDim S50000x64 ![] bcast_S_S50000x64 (constant (F := Ideal) S_ .f32 0x00000000#32))
        (broadcastInDim S800000x1 ![0] bcast_S800000_S800000x1_0
          (shapeCast S800000 (extractStridedSlice S1x800000 ![1, 0] a6 slices_S2x800000_S1x800000_1_0) shapeCasts_S1x800000_S800000))
        X
      = Host.scatterAdd Cert.ReferenceIdeal.scatter_S50000x64_S800000x1_S800000x64_1_0_0_1
          (Cert.ReferenceIdeal.Read.val_main_v31 (F := Ideal)) (Cert.ReferenceIdeal.Read.val_main_v32 (F := Ideal) a6) X := by
  unfold Cert.ReferenceIdeal.Read.val_main_v31 Cert.ReferenceIdeal.Read.val_main_cst Cert.ReferenceIdeal.Read.val_main_v32
    Cert.ReferenceIdeal.Read.val_main_v5 Cert.ReferenceIdeal.Read.val_main_v4
  rfl

/-- THE RESULT BUFFER after the whole program, under the precondition: `Res`. -/
theorem result_eq (c : Dev nD) (hpre : Cert.Pre_finite_inputs.fn (F := Ideal)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) = fun _ => 1#1) :
    (Pipeline.afterTail₀ cfgs (dats m) 0 (V0 m) [hostOps1] c main_v13 : S50000x64.Idx → EReal) = Res m c := by
  rw [tail_eq, V_v5, final6, msg_eq m c hpre]
  unfold dst Res Cert.ReferenceIdeal.Read.val_main_v33
  exact scatter_eq _ _

/-- THE RUN: from a memory satisfying the precondition, every weakly fair execution of the kernel's program terminates
    with the result buffer at `Res` and the seven argument arrays unchanged. -/
theorem run (hpre : Cert.Pre_KernelIdeal (hPre_finite_inputs := Cert.Pre_finite_inputs.Gen.facts) m) :
    θ_run defs (onTc (τ := τ) (main (F := Ideal))) ⟨m, fun _ => 0, ρ⟩ (fun r => ∀ c : Dev nD,
      r.2.mem ((c.tc : Thread nD τ).loc main_v13) = Res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v13 (Pipeline.mem_restRefs_of main_v13 (by decide) (by decide))).trans (result_eq m c (hpre c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.Out

end
-- ==== Proof.lean ====
/-
  One layer of edge-network message passing on a graph: the tiled kernel against the whole-array reference, over the
  extended reals.

  Both programs build a node table h (the node features with the graph's scalars laid beside every row: 50000 rows
  of 48), take its rows at the 800000 edges' target and source nodes, pass each edge's pair of rows through the edge
  network (the target's row joined with source minus target; a 96 x 96 matrix, a bias, a clip at zero; a 96 x 64
  matrix, a bias), and sum the 800000 messages into their target nodes' rows of a zero [50000, 64] array.

  The reference does every step as one whole-array operation. The kernel's program takes the rows with a range test
  (a row whose index is out of range is replaced by a fill value where the reference's gather clamps), runs the edge
  network in a kernel tiled 4000 edges to a grid point (its two matrix products on operands narrowed to a shorter
  float format, which over the extended reals is the identity), and scatter-adds after the kernel. Outside the index
  range the two programs differ; the precondition therefore asks, besides finite float inputs, that every edge index
  lie in [0, 50000), the range in which the reference's own indexing is inside the node table.

  * `EdgeMlp`: the edge network of one edge as a function on extended reals, and of all edges as one array.
  * `Payload`, `Region`: the block the kernel stores at a grid point is the edge network of the rows it loaded; the 200
    blocks tile the output, which ends as the edge network of the two taken tables.
  * `Take`, `HostSide`, `PreRange`: under the precondition the take with its range test is the plain gather.
  * `RefMlp`: the reference's whole-array operations are the same edge network of its two gathered tables.
  * `KernelOut`, `KernelRun`: the two gathers and the final scatter-add are the same operations on the same operands
    in both programs, so the kernel's program ends at the reference's own last stage of its argument arrays.

  The three frames: the kernel's and the idealized kernel's are the generated frame certificates, the reference's is
  its generated run with the result dropped. The idealization rewrote nothing, so there is nothing to preserve. The
  algebraic claim pairs the kernel's run (`KernelRun`) with the reference's generated run read stage by stage.
-/
import proofs.«428902_j15427522527435_1_alg».proof.Defs
import proofs.«428902_j15427522527435_1_alg».proof.Proof.Gen.Kernel
import proofs.«428902_j15427522527435_1_alg».proof.Proof.Gen.Kernel.Skeleton
import proofs.«428902_j15427522527435_1_alg».proof.Proof.Gen.Kernel.Launch
import proofs.«428902_j15427522527435_1_alg».proof.Proof.Gen.Kernel.Points
import proofs.«428902_j15427522527435_1_alg».proof.Proof.Gen.Kernel.Frame
import proofs.«428902_j15427522527435_1_alg».proof.Proof.Gen.KernelIdeal
import proofs.«428902_j15427522527435_1_alg».proof.Proof.Gen.KernelIdeal.Skeleton
import proofs.«428902_j15427522527435_1_alg».proof.Proof.Gen.KernelIdeal.Launch
import proofs.«428902_j15427522527435_1_alg».proof.Proof.Gen.KernelIdeal.Points
import proofs.«428902_j15427522527435_1_alg».proof.Proof.Gen.KernelIdeal.Frame
import proofs.«428902_j15427522527435_1_alg».proof.Proof.Gen.ReferenceIdeal
import proofs.«428902_j15427522527435_1_alg».proof.Proof.Gen.Pre_finite_inputs
import proofs.«428902_j15427522527435_1_alg».proof.Proof.Gen.ReferenceIdeal.Run
import proofs.«428902_j15427522527435_1_alg».proof.Proof.Gen.ReferenceIdeal.Read
import proofs.«428902_j15427522527435_1_alg».proof.Proof.KernelRun
import Idealize.ShloMosaic.Adequacy
import Idealize.ShloMosaic.Init

noncomputable section

namespace Cert.Proof

open Idealize.ShloMosaic Idealize.SL.Sem

/-- The kernel's program, word level: the generated frame certificate. -/
theorem frame_kernel : Cert.frame_Kernel := fun m ρ _ => Cert.Kernel.Gen.frame m ρ

/-- The idealized kernel's program: the generated frame certificate. -/
theorem frame_kernelIdeal : Cert.frame_KernelIdeal := fun m ρ _ => Cert.KernelIdeal.Gen.frame m ρ

/-- The reference: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- Over the extended reals, from memories that agree on the seven arguments and satisfy the precondition, both
    programs end with the reference's last stage of those arguments: the kernel's program by `KernelRun`, the reference
    by its own run, whose result term is that stage of ITS arguments, which are the kernel's. -/
theorem algebraic : Cert.algebraic_KernelIdeal_ReferenceIdeal := by
  intro m ρ m' ρ' hpre hagree
  refine ⟨fun c => Cert.KernelIdeal.Out.Res m c, Cert.KernelIdeal.Out.run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq]
  unfold Cert.KernelIdeal.Out.Res
  rw [(hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
